-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152 : Shape := ⟨1, ![2097152]⟩
abbrev S16x524288x4 : Shape := ⟨3, ![16, 524288, 4]⟩
abbrev S_ : Shape := ⟨0, ![]⟩

class Facts : Prop where
  bcast_S_S2097152 : S_.BroadcastsInDim S2097152 (![] : Fin 0 → Fin S2097152.rank)
  reducesTo_S2097152_S_d0 : S2097152.ReducesTo [0] S_
  h_S_ : 0 < S_.numel
  bcast_S_S16x524288x4 : S_.BroadcastsInDim S16x524288x4 (![] : Fin 0 → Fin S16x524288x4.rank)
  reducesTo_S16x524288x4_S_d0_1_2 : S16x524288x4.ReducesTo [0, 1, 2] S_

variable [Facts]

def fn {F : FTy → Type} [FloatOps F] (main_arg0 : FVec F S2097152 .f32) (main_arg1 : FVec F S16x524288x4 .f32) : IVec S_ 1 :=
  let main_v0 : FVec F S2097152 .f32 := Host.absf main_arg0
  let main_cst : FVec F S_ .f32 := constant S_ .f32 0x7F800000#32
  let main_v1 : FVec F S2097152 .f32 := broadcastInDim S2097152 ![] bcast_S_S2097152 main_cst
  let main_v2 : IVec S2097152 1 := cmpf .olt main_v0 main_v1
  let main_c : IVec S_ 1 := constantI S_ 1 1#1
  let main_v3 : IVec S_ 1 := (fun x v => Host.reduce IntOp.andi x v reducesTo_S2097152_S_d0 h_S_) main_v2 main_c
  let main_v4 : FVec F S16x524288x4 .f32 := Host.absf main_arg1
  let main_cst_0 : FVec F S_ .f32 := constant S_ .f32 0x7F800000#32
  let main_v5 : FVec F S16x524288x4 .f32 := broadcastInDim S16x524288x4 ![] bcast_S_S16x524288x4 main_cst_0
  let main_v6 : IVec S16x524288x4 1 := cmpf .olt main_v4 main_v5
  let main_c_1 : IVec S_ 1 := constantI S_ 1 1#1
  let main_v7 : IVec S_ 1 := (fun x v => Host.reduce IntOp.andi x v reducesTo_S16x524288x4_S_d0_1_2 h_S_) main_v6 main_c_1
  let main_v8 : IVec S_ 1 := andi main_v3 main_v7
  main_v8
-- ==== Kernel.lean ====
abbrev S2097152 : Shape := ⟨1, ![2097152]⟩
abbrev S16x524288x4 : Shape := ⟨3, ![16, 524288, 4]⟩
abbrev S16 : Shape := ⟨1, ![16]⟩
abbrev S_ : Shape := ⟨0, ![]⟩
abbrev S2097152x1 : Shape := ⟨2, ![2097152, 1]⟩
abbrev S1x16 : Shape := ⟨2, ![1, 16]⟩
abbrev S2097152x16 : Shape := ⟨2, ![2097152, 16]⟩
abbrev S2097152x16x1 : Shape := ⟨3, ![2097152, 16, 1]⟩
abbrev S2097152x16x2 : Shape := ⟨3, ![2097152, 16, 2]⟩
abbrev S2097152x16x4 : Shape := ⟨3, ![2097152, 16, 4]⟩
abbrev S2097152x64 : Shape := ⟨2, ![2097152, 64]⟩
abbrev S8192x64 : Shape := ⟨2, ![8192, 64]⟩

abbrev nBuf : Space → Nat
  | .hbm => 141
  | .vmem => 8
  | .smem => 0
  | _ => 0

abbrev hbmTy0_0 (i : Nat) : BufTy := match i % 128 with
  | 0 => ⟨S2097152, .f32⟩
  | 1 => ⟨S16x524288x4, .f32⟩
  | 2 => ⟨S16, .i32⟩
  | 3 => ⟨S16, .i32⟩
  | 4 => ⟨S_, .f32⟩
  | 5 => ⟨S_, .f32⟩
  | 6 => ⟨S_, .f32⟩
  | 7 => ⟨S2097152, .f32⟩
  | 8 => ⟨S2097152, .f32⟩
  | 9 => ⟨S_, .f32⟩
  | 10 => ⟨S2097152, .f32⟩
  | 11 => ⟨S2097152, .f32⟩
  | 12 => ⟨S_, .i32⟩
  | 13 => ⟨S16, .i32⟩
  | 14 => ⟨S16, .i32⟩
  | 15 => ⟨S16, .f32⟩
  | 16 => ⟨S2097152x1, .f32⟩
  | 17 => ⟨S1x16, .f32⟩
  | 18 => ⟨S2097152x16, .f32⟩
  | 19 => ⟨S2097152x16, .f32⟩
  | 20 => ⟨S2097152x16, .f32⟩
  | 21 => ⟨S2097152x16, .f32⟩
  | 22 => ⟨S2097152x16, .i32⟩
  | 23 => ⟨S_, .i32⟩
  | 24 => ⟨S2097152x16, .i32⟩
  | 25 => ⟨S2097152x16, .i32⟩
  | 26 => ⟨S_, .i32⟩
  | 27 => ⟨S16, .i32⟩
  | 28 => ⟨S16, .i32⟩
  | 29 => ⟨S1x16, .i32⟩
  | 30 => ⟨S2097152x16, .i32⟩
  | 31 => ⟨S2097152x16, .i32⟩
  | 32 => ⟨S2097152x16, .f32⟩
  | 33 => ⟨S2097152x16, .f32⟩
  | 34 => ⟨S_, .i32⟩
  | 35 => ⟨S2097152x16, .i32⟩
  | 36 => ⟨S2097152x16, .i32⟩
  | 37 => ⟨S1x16, .i32⟩
  | 38 => ⟨S_, .i32⟩
  | 39 => ⟨S1x16, .i32⟩
  | 40 => ⟨S1x16, .i32⟩
  | 41 => ⟨S2097152x16, .i32⟩
  | 42 => ⟨S2097152x16, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S2097152x16, .i32⟩
  | 50 => ⟨S2097152x16, .i32⟩
  | 51 => ⟨S_, .i32⟩
  | 52 => ⟨S2097152x16, .i32⟩
  | 53 => ⟨S2097152x16, .i1⟩
  | 54 => ⟨S_, .i32⟩
  | 55 => ⟨S2097152x16, .i32⟩
  | 56 => ⟨S2097152x16, .i1⟩
  | 57 => ⟨S_, .i32⟩
  | 58 => ⟨S_, .i1⟩
  | 59 => ⟨S2097152x16, .i1⟩
  | 60 => ⟨S2097152x16, .i1⟩
  | 61 => ⟨S2097152x16, .i1⟩
  | 62 => ⟨S2097152x16, .i32⟩
  | 63 => ⟨S2097152x16, .i32⟩
  | 64 => ⟨S2097152x16, .i32⟩
  | 65 => ⟨S_, .i32⟩
  | 66 => ⟨S2097152x16, .i32⟩
  | 67 => ⟨S2097152x16, .i32⟩
  | 68 => ⟨S1x16, .i32⟩
  | 69 => ⟨S_, .i32⟩
  | 70 => ⟨S1x16, .i32⟩
  | 71 => ⟨S1x16, .i32⟩
  | 72 => ⟨S2097152x16, .i32⟩
  | 73 => ⟨S2097152x16, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S2097152x16, .i32⟩
  | 81 => ⟨S2097152x16, .i32⟩
  | 82 => ⟨S_, .i32⟩
  | 83 => ⟨S2097152x16, .i32⟩
  | 84 => ⟨S2097152x16, .i1⟩
  | 85 => ⟨S_, .i32⟩
  | 86 => ⟨S2097152x16, .i32⟩
  | 87 => ⟨S2097152x16, .i1⟩
  | 88 => ⟨S_, .i32⟩
  | 89 => ⟨S_, .i1⟩
  | 90 => ⟨S2097152x16, .i1⟩
  | 91 => ⟨S2097152x16, .i1⟩
  | 92 => ⟨S2097152x16, .i1⟩
  | 93 => ⟨S2097152x16, .i32⟩
  | 94 => ⟨S2097152x16, .i32⟩
  | 95 => ⟨S2097152x16, .i32⟩
  | 96 => ⟨S1x16, .i32⟩
  | 97 => ⟨S_, .i32⟩
  | 98 => ⟨S1x16, .i32⟩
  | 99 => ⟨S1x16, .i1⟩
  | 100 => ⟨S_, .i32⟩
  | 101 => ⟨S1x16, .i32⟩
  | 102 => ⟨S1x16, .i32⟩
  | 103 => ⟨S1x16, .i32⟩
  | 104 => ⟨S_, .i32⟩
  | 105 => ⟨S2097152x16, .i32⟩
  | 106 => ⟨S2097152x16, .i1⟩
  | 107 => ⟨S_, .i32⟩
  | 108 => ⟨S2097152x16, .i32⟩
  | 109 => ⟨S2097152x16, .i32⟩
  | 110 => ⟨S2097152x16, .i32⟩
  | 111 => ⟨S2097152x16, .i32⟩
  | 112 => ⟨S2097152x16x1, .i32⟩
  | 113 => ⟨S2097152x16x1, .i32⟩
  | 114 => ⟨S2097152x16x2, .i32⟩
  | 115 => ⟨S2097152x16x4, .f32⟩
  | 116 => ⟨S_, .i32⟩
  | 117 => ⟨S1x16, .i32⟩
  | 118 => ⟨S1x16, .i1⟩
  | 119 => ⟨S_, .i32⟩
  | 120 => ⟨S1x16, .i32⟩
  | 121 => ⟨S1x16, .i32⟩
  | 122 => ⟨S1x16, .i32⟩
  | 123 => ⟨S_, .i32⟩
  | 124 => ⟨S2097152x16, .i32⟩
  | 125 => ⟨S2097152x16, .i1⟩
  | 126 => ⟨S_, .i32⟩
  | 127 => ⟨S2097152x16, .i32⟩
  | _ => ⟨S2097152, .f32⟩

abbrev hbmTy0_1 (i : Nat) : BufTy := match i % 128 with
  | 0 => ⟨S2097152x16, .i32⟩
  | 1 => ⟨S2097152x16, .i32⟩
  | 2 => ⟨S2097152x16, .i32⟩
  | 3 => ⟨S2097152x16x1, .i32⟩
  | 4 => ⟨S2097152x16x1, .i32⟩
  | 5 => ⟨S2097152x16x2, .i32⟩
  | 6 => ⟨S2097152x16x4, .f32⟩
  | 7 => ⟨S2097152x16x1, .f32⟩
  | 8 => ⟨S2097152x16x4, .f32⟩
  | 9 => ⟨S2097152x64, .f32⟩
  | 10 => ⟨S2097152x64, .f32⟩
  | 11 => ⟨S2097152x64, .f32⟩
  | 12 => ⟨S2097152x64, .f32⟩
  | _ => ⟨S2097152, .f32⟩

abbrev hbmTy (i : Nat) : BufTy := match i / 128 with
  | 0 => hbmTy0_0 i
  | 1 => hbmTy0_1 i
  | _ => ⟨S2097152, .f32⟩

abbrev bufTy : (tb : Table) → Fin (tcTables nBuf tb) → BufTy
  | .hbm, ⟨i, _⟩ => hbmTy i
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S8192x64, .f32⟩
  | .local _ .vmem, ⟨7, _⟩ => ⟨S8192x64, .f32⟩
  | _, _ => ⟨S2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_c_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v28 : Ref sig .tc := ⟨.hbm, 64, rfl⟩
abbrev main_c_7 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_c_8 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_c_9 : Ref sig .tc := ⟨.hbm, 74, rfl⟩
abbrev main_call2_v0 : Ref sig .tc := ⟨.hbm, 75, rfl⟩
abbrev main_call2_c : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_c_1 : Ref sig .tc := ⟨.hbm, 82, rfl⟩
abbrev main_call2_v5 : Ref sig .tc := ⟨.hbm, 83, rfl⟩
abbrev main_call2_v6 : Ref sig .tc := ⟨.hbm, 84, rfl⟩
abbrev main_call2_c_2 : Ref sig .tc := ⟨.hbm, 85, rfl⟩
abbrev main_call2_v7 : Ref sig .tc := ⟨.hbm, 86, rfl⟩
abbrev main_call2_v8 : Ref sig .tc := ⟨.hbm, 87, rfl⟩
abbrev main_call2_c_3 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_v36 : Ref sig .tc := ⟨.hbm, 95, rfl⟩
abbrev main_v37 : Ref sig .tc := ⟨.hbm, 96, rfl⟩
abbrev main_c_10 : Ref sig .tc := ⟨.hbm, 97, rfl⟩
abbrev main_v38 : Ref sig .tc := ⟨.hbm, 98, rfl⟩
abbrev main_v39 : Ref sig .tc := ⟨.hbm, 99, rfl⟩
abbrev main_c_11 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_c_12 : Ref sig .tc := ⟨.hbm, 104, rfl⟩
abbrev main_v43 : Ref sig .tc := ⟨.hbm, 105, rfl⟩
abbrev main_v44 : Ref sig .tc := ⟨.hbm, 106, rfl⟩
abbrev main_c_13 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_c_14 : Ref sig .tc := ⟨.hbm, 116, rfl⟩
abbrev main_v53 : Ref sig .tc := ⟨.hbm, 117, rfl⟩
abbrev main_v54 : Ref sig .tc := ⟨.hbm, 118, rfl⟩
abbrev main_c_15 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_c_16 : Ref sig .tc := ⟨.hbm, 123, rfl⟩
abbrev main_v58 : Ref sig .tc := ⟨.hbm, 124, rfl⟩
abbrev main_v59 : Ref sig .tc := ⟨.hbm, 125, rfl⟩
abbrev main_c_17 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2097152 : S_.BroadcastsInDim S2097152 (![] : Fin 0 → Fin S2097152.rank)
  bcast_S_S16 : S_.BroadcastsInDim S16 (![] : Fin 0 → Fin S16.rank)
  bcast_S2097152_S2097152x1_0 : S2097152.BroadcastsInDim S2097152x1 (![0] : Fin 1 → Fin S2097152x1.rank)
  bcast_S16_S1x16_1 : S16.BroadcastsInDim S1x16 (![1] : Fin 1 → Fin S1x16.rank)
  bcast_S2097152x1_S2097152x16_0_1 : S2097152x1.BroadcastsInDim S2097152x16 (![0, 1] : Fin 2 → Fin S2097152x16.rank)
  bcast_S1x16_S2097152x16_0_1 : S1x16.BroadcastsInDim S2097152x16 (![0, 1] : Fin 2 → Fin S2097152x16.rank)
  bcast_S_S2097152x16 : S_.BroadcastsInDim S2097152x16 (![] : Fin 0 → Fin S2097152x16.rank)
  bcast_S_S1x16 : S_.BroadcastsInDim S1x16 (![] : Fin 0 → Fin S1x16.rank)
  bcast_S2097152x16_S2097152x16x1_0_1 : S2097152x16.BroadcastsInDim S2097152x16x1 (![0, 1] : Fin 2 → Fin S2097152x16x1.rank)
  concatenates_S2097152x16x1_S2097152x16x1_S2097152x16x2_d2 : Shape.Concatenates [S2097152x16x1, S2097152x16x1] S2097152x16x2 2
  bcast_S2097152x16x1_S2097152x16x4_0_1_2 : S2097152x16x1.BroadcastsInDim S2097152x16x4 (![0, 1, 2] : Fin 3 → Fin S2097152x16x4.rank)
  shapeCasts_S2097152x16x4_S2097152x64 : S2097152x16x4.ShapeCasts S2097152x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  gather_S16x524288x4_S2097152x16x2_S2097152x16x4_2_01_n_n_01_2_114_wf : GatherDims.WF S16x524288x4 S2097152x16x2 S2097152x16x4 [2] [0, 1] [] [0, 1] [] 2 ![1, 1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S2097152x64.size a
  hwx0_0 : ∀ i : grid0.Coords, EltTy.bits .f32 = 32 ∨ (Rect.block (s := S2097152x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S2097152x64.size a
  hwx0_1 : ∀ i : grid0.Coords, EltTy.bits .f32 = 32 ∨ (Rect.block (s := S2097152x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S2097152x64.size a
  hwx0_2 : ∀ i : grid0.Coords, EltTy.bits .f32 = 32 ∨ (Rect.block (s := S2097152x64) S8192x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S2097152x64.size a
  hwx0_3 : ∀ i : grid0.Coords, EltTy.bits .f32 = 32 ∨ (Rect.block (s := S2097152x64) S8192x64.size (cc0_transform_3 i) (hinb0_3 i)).WholeWords (EltTy.packing .f32)

variable [Facts₀]

def gather_S16x524288x4_S2097152x16x2_S2097152x16x4_2_01_n_n_01_2_114 : GatherDims S16x524288x4 S2097152x16x2 S2097152x16x4 where
  offsetDims := [2]
  collapsedSliceDims := [0, 1]
  operandBatchingDims := []
  startIndicesBatchingDims := []
  startIndexMap := [0, 1]
  indexVectorDim := 2
  sliceSizes := ![1, 1, 4]
  wf := gather_S16x524288x4_S2097152x16x2_S2097152x16x4_2_01_n_n_01_2_114_wf

abbrev win0_0 : Pipeline.Window sig grid0 :=
  Pipeline.Window.ofSpec (Memref.whole main_v70) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v71) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v72) S8192x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v73) S8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2097152 : Shape := ⟨1, ![2097152]⟩
abbrev S16x524288x4 : Shape := ⟨3, ![16, 524288, 4]⟩
abbrev S16 : Shape := ⟨1, ![16]⟩
abbrev S_ : Shape := ⟨0, ![]⟩
abbrev S1x2097152 : Shape := ⟨2, ![1, 2097152]⟩
abbrev S16x1 : Shape := ⟨2, ![16, 1]⟩
abbrev S16x2097152 : Shape := ⟨2, ![16, 2097152]⟩
abbrev S16x2097152x1 : Shape := ⟨3, ![16, 2097152, 1]⟩
abbrev S16x2097152x2 : Shape := ⟨3, ![16, 2097152, 2]⟩
abbrev S16x2097152x4 : Shape := ⟨3, ![16, 2097152, 4]⟩
abbrev S2097152x16x4 : Shape := ⟨3, ![2097152, 16, 4]⟩
abbrev S2097152x64 : Shape := ⟨2, ![2097152, 64]⟩

abbrev nBuf : Space → Nat
  | .hbm => 146
  | .vmem => 0
  | .smem => 0
  | _ => 0

abbrev hbmTy0_0 (i : Nat) : BufTy := match i % 128 with
  | 0 => ⟨S2097152, .f32⟩
  | 1 => ⟨S16x524288x4, .f32⟩
  | 2 => ⟨S16, .i32⟩
  | 3 => ⟨S16, .i32⟩
  | 4 => ⟨S_, .f32⟩
  | 5 => ⟨S_, .f32⟩
  | 6 => ⟨S_, .f32⟩
  | 7 => ⟨S2097152, .f32⟩
  | 8 => ⟨S2097152, .f32⟩
  | 9 => ⟨S_, .f32⟩
  | 10 => ⟨S2097152, .f32⟩
  | 11 => ⟨S2097152, .f32⟩
  | 12 => ⟨S1x2097152, .f32⟩
  | 13 => ⟨S_, .i32⟩
  | 14 => ⟨S16, .i32⟩
  | 15 => ⟨S16, .i32⟩
  | 16 => ⟨S16, .f32⟩
  | 17 => ⟨S16x1, .f32⟩
  | 18 => ⟨S16x2097152, .f32⟩
  | 19 => ⟨S16x2097152, .f32⟩
  | 20 => ⟨S16x2097152, .f32⟩
  | 21 => ⟨S16x2097152, .f32⟩
  | 22 => ⟨S16x2097152, .i32⟩
  | 23 => ⟨S_, .i32⟩
  | 24 => ⟨S16x2097152, .i32⟩
  | 25 => ⟨S16x2097152, .i32⟩
  | 26 => ⟨S_, .i32⟩
  | 27 => ⟨S16, .i32⟩
  | 28 => ⟨S16, .i32⟩
  | 29 => ⟨S16x1, .i32⟩
  | 30 => ⟨S16x2097152, .i32⟩
  | 31 => ⟨S16x2097152, .i32⟩
  | 32 => ⟨S16x2097152, .f32⟩
  | 33 => ⟨S16x2097152, .f32⟩
  | 34 => ⟨S16x2097152x1, .f32⟩
  | 35 => ⟨S_, .i32⟩
  | 36 => ⟨S16x2097152, .i32⟩
  | 37 => ⟨S16x2097152, .i32⟩
  | 38 => ⟨S16x1, .i32⟩
  | 39 => ⟨S_, .i32⟩
  | 40 => ⟨S16x1, .i32⟩
  | 41 => ⟨S16x1, .i32⟩
  | 42 => ⟨S16x2097152, .i32⟩
  | 43 => ⟨S16x2097152, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S16x2097152, .i32⟩
  | 51 => ⟨S16x2097152, .i32⟩
  | 52 => ⟨S_, .i32⟩
  | 53 => ⟨S16x2097152, .i32⟩
  | 54 => ⟨S16x2097152, .i1⟩
  | 55 => ⟨S_, .i32⟩
  | 56 => ⟨S16x2097152, .i32⟩
  | 57 => ⟨S16x2097152, .i1⟩
  | 58 => ⟨S_, .i32⟩
  | 59 => ⟨S_, .i1⟩
  | 60 => ⟨S16x2097152, .i1⟩
  | 61 => ⟨S16x2097152, .i1⟩
  | 62 => ⟨S16x2097152, .i1⟩
  | 63 => ⟨S16x2097152, .i32⟩
  | 64 => ⟨S16x2097152, .i32⟩
  | 65 => ⟨S16x2097152, .i32⟩
  | 66 => ⟨S_, .i32⟩
  | 67 => ⟨S16x2097152, .i32⟩
  | 68 => ⟨S16x2097152, .i32⟩
  | 69 => ⟨S16x1, .i32⟩
  | 70 => ⟨S_, .i32⟩
  | 71 => ⟨S16x1, .i32⟩
  | 72 => ⟨S16x1, .i32⟩
  | 73 => ⟨S16x2097152, .i32⟩
  | 74 => ⟨S16x2097152, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S16x2097152, .i32⟩
  | 82 => ⟨S16x2097152, .i32⟩
  | 83 => ⟨S_, .i32⟩
  | 84 => ⟨S16x2097152, .i32⟩
  | 85 => ⟨S16x2097152, .i1⟩
  | 86 => ⟨S_, .i32⟩
  | 87 => ⟨S16x2097152, .i32⟩
  | 88 => ⟨S16x2097152, .i1⟩
  | 89 => ⟨S_, .i32⟩
  | 90 => ⟨S_, .i1⟩
  | 91 => ⟨S16x2097152, .i1⟩
  | 92 => ⟨S16x2097152, .i1⟩
  | 93 => ⟨S16x2097152, .i1⟩
  | 94 => ⟨S16x2097152, .i32⟩
  | 95 => ⟨S16x2097152, .i32⟩
  | 96 => ⟨S16x2097152, .i32⟩
  | 97 => ⟨S16x1, .i32⟩
  | 98 => ⟨S_, .i32⟩
  | 99 => ⟨S16x1, .i32⟩
  | 100 => ⟨S16x1, .i1⟩
  | 101 => ⟨S_, .i32⟩
  | 102 => ⟨S16x1, .i32⟩
  | 103 => ⟨S16x1, .i32⟩
  | 104 => ⟨S16x1, .i32⟩
  | 105 => ⟨S_, .i32⟩
  | 106 => ⟨S16x2097152, .i32⟩
  | 107 => ⟨S16x2097152, .i1⟩
  | 108 => ⟨S_, .i32⟩
  | 109 => ⟨S16x2097152, .i32⟩
  | 110 => ⟨S16x2097152, .i32⟩
  | 111 => ⟨S16x2097152, .i32⟩
  | 112 => ⟨S16x2097152, .i32⟩
  | 113 => ⟨S16x2097152x1, .i32⟩
  | 114 => ⟨S16x2097152x1, .i32⟩
  | 115 => ⟨S16x2097152x2, .i32⟩
  | 116 => ⟨S16x2097152x4, .f32⟩
  | 117 => ⟨S_, .i32⟩
  | 118 => ⟨S16x1, .i32⟩
  | 119 => ⟨S16x1, .i1⟩
  | 120 => ⟨S_, .i32⟩
  | 121 => ⟨S16x1, .i32⟩
  | 122 => ⟨S16x1, .i32⟩
  | 123 => ⟨S16x1, .i32⟩
  | 124 => ⟨S_, .i32⟩
  | 125 => ⟨S16x2097152, .i32⟩
  | 126 => ⟨S16x2097152, .i1⟩
  | 127 => ⟨S_, .i32⟩
  | _ => ⟨S2097152, .f32⟩

abbrev hbmTy0_1 (i : Nat) : BufTy := match i % 128 with
  | 0 => ⟨S16x2097152, .i32⟩
  | 1 => ⟨S16x2097152, .i32⟩
  | 2 => ⟨S16x2097152, .i32⟩
  | 3 => ⟨S16x2097152, .i32⟩
  | 4 => ⟨S16x2097152x1, .i32⟩
  | 5 => ⟨S16x2097152x1, .i32⟩
  | 6 => ⟨S16x2097152x2, .i32⟩
  | 7 => ⟨S16x2097152x4, .f32⟩
  | 8 => ⟨S_, .f32⟩
  | 9 => ⟨S16x2097152x1, .f32⟩
  | 10 => ⟨S16x2097152x1, .f32⟩
  | 11 => ⟨S16x2097152x4, .f32⟩
  | 12 => ⟨S16x2097152x4, .f32⟩
  | 13 => ⟨S16x2097152x4, .f32⟩
  | 14 => ⟨S16x2097152x4, .f32⟩
  | 15 => ⟨S16x2097152x4, .f32⟩
  | 16 => ⟨S2097152x16x4, .f32⟩
  | 17 => ⟨S2097152x64, .f32⟩
  | _ => ⟨S2097152, .f32⟩

abbrev hbmTy (i : Nat) : BufTy := match i / 128 with
  | 0 => hbmTy0_0 i
  | 1 => hbmTy0_1 i
  | _ => ⟨S2097152, .f32⟩

abbrev bufTy : (tb : Table) → Fin (tcTables nBuf tb) → BufTy
  | .hbm, ⟨i, _⟩ => hbmTy i
  | _, _ => ⟨S2097152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v29 : Ref sig .tc := ⟨.hbm, 65, rfl⟩
abbrev main_c_7 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_c_8 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_c_9 : Ref sig .tc := ⟨.hbm, 75, rfl⟩
abbrev main_call2_v0 : Ref sig .tc := ⟨.hbm, 76, rfl⟩
abbrev main_call2_c : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_1 : Ref sig .tc := ⟨.hbm, 83, rfl⟩
abbrev main_call2_v5 : Ref sig .tc := ⟨.hbm, 84, rfl⟩
abbrev main_call2_v6 : Ref sig .tc := ⟨.hbm, 85, rfl⟩
abbrev main_call2_c_2 : Ref sig .tc := ⟨.hbm, 86, rfl⟩
abbrev main_call2_v7 : Ref sig .tc := ⟨.hbm, 87, rfl⟩
abbrev main_call2_v8 : Ref sig .tc := ⟨.hbm, 88, rfl⟩
abbrev main_call2_c_3 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_v37 : Ref sig .tc := ⟨.hbm, 96, rfl⟩
abbrev main_v38 : Ref sig .tc := ⟨.hbm, 97, rfl⟩
abbrev main_c_10 : Ref sig .tc := ⟨.hbm, 98, rfl⟩
abbrev main_v39 : Ref sig .tc := ⟨.hbm, 99, rfl⟩
abbrev main_v40 : Ref sig .tc := ⟨.hbm, 100, rfl⟩
abbrev main_c_11 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_c_12 : Ref sig .tc := ⟨.hbm, 105, rfl⟩
abbrev main_v44 : Ref sig .tc := ⟨.hbm, 106, rfl⟩
abbrev main_v45 : Ref sig .tc := ⟨.hbm, 107, rfl⟩
abbrev main_c_13 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_c_14 : Ref sig .tc := ⟨.hbm, 117, rfl⟩
abbrev main_v54 : Ref sig .tc := ⟨.hbm, 118, rfl⟩
abbrev main_v55 : Ref sig .tc := ⟨.hbm, 119, rfl⟩
abbrev main_c_15 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_c_16 : Ref sig .tc := ⟨.hbm, 124, rfl⟩
abbrev main_v59 : Ref sig .tc := ⟨.hbm, 125, rfl⟩
abbrev main_v60 : Ref sig .tc := ⟨.hbm, 126, rfl⟩
abbrev main_c_17 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_cst_18 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S1x2097152_1 : S2097152.BroadcastsInDim S1x2097152 (![1] : Fin 1 → Fin S1x2097152.rank)
  bcast_S_S16 : S_.BroadcastsInDim S16 (![] : Fin 0 → Fin S16.rank)
  bcast_S16_S16x1_0 : S16.BroadcastsInDim S16x1 (![0] : Fin 1 → Fin S16x1.rank)
  bcast_S1x2097152_S16x2097152_0_1 : S1x2097152.BroadcastsInDim S16x2097152 (![0, 1] : Fin 2 → Fin S16x2097152.rank)
  bcast_S16x1_S16x2097152_0_1 : S16x1.BroadcastsInDim S16x2097152 (![0, 1] : Fin 2 → Fin S16x2097152.rank)
  bcast_S_S16x2097152 : S_.BroadcastsInDim S16x2097152 (![] : Fin 0 → Fin S16x2097152.rank)
  bcast_S16x2097152_S16x2097152x1_0_1 : S16x2097152.BroadcastsInDim S16x2097152x1 (![0, 1] : Fin 2 → Fin S16x2097152x1.rank)
  bcast_S_S16x1 : S_.BroadcastsInDim S16x1 (![] : Fin 0 → Fin S16x1.rank)
  concatenates_S16x2097152x1_S16x2097152x1_S16x2097152x2_d2 : Shape.Concatenates [S16x2097152x1, S16x2097152x1] S16x2097152x2 2
  bcast_S_S16x2097152x1 : S_.BroadcastsInDim S16x2097152x1 (![] : Fin 0 → Fin S16x2097152x1.rank)
  bcast_S16x2097152x1_S16x2097152x4_0_1_2 : S16x2097152x1.BroadcastsInDim S16x2097152x4 (![0, 1, 2] : Fin 3 → Fin S16x2097152x4.rank)
  transposes_S16x2097152x4_S2097152x16x4_1_0_2 : S16x2097152x4.Transposes [1, 0, 2] S2097152x16x4
  shapeCasts_S2097152x16x4_S2097152x64 : S2097152x16x4.ShapeCasts S2097152x64
  gather_S16x524288x4_S16x2097152x2_S16x2097152x4_2_01_n_n_01_2_114_wf : GatherDims.WF S16x524288x4 S16x2097152x2 S16x2097152x4 [2] [0, 1] [] [0, 1] [] 2 ![1, 1, 4]

variable [Facts₀]

def gather_S16x524288x4_S16x2097152x2_S16x2097152x4_2_01_n_n_01_2_114 : GatherDims S16x524288x4 S16x2097152x2 S16x2097152x4 where
  offsetDims := [2]
  collapsedSliceDims := [0, 1]
  operandBatchingDims := []
  startIndicesBatchingDims := []
  startIndexMap := [0, 1]
  indexVectorDim := 2
  sliceSizes := ![1, 1, 4]
  wf := gather_S16x524288x4_S16x2097152x2_S16x2097152x4_2_01_n_n_01_2_114_wf

class Facts : Prop extends Facts₀ where

variable [Facts]
-- ==== Proof.KerArray.lean ====
/- The idealized kernel's output array as ONE function of the three arrays it reads: from the blockwise value leg
   (what each grid point writes back, block by block) to the whole array. The body stores, at every index of its block,
   e0 + w·(e1 − e0) of the three input blocks at that index; the four windows move together (block t is rows
   8192·t … 8192·t + 8191, all 64 columns), and the 256 blocks tile the 2097152 × 64 array, so the array ends holding
   e0 + w·(e1 − e0) of the arrays index by index. -/
import proofs.«139522_j19645180412085_1_alg».proof.Proof.Gen.KernelIdeal.Value
import Idealize.ShloMosaic.Lib.Pipeline.Value

noncomputable section

namespace Cert.KernelIdeal.Arr

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- e0 + w·(e1 − e0), index by index. -/
def lerp (a b w : S2097152x64.Idx → Elt F .f32) : S2097152x64.Idx → Elt F .f32 :=
  fun i => FloatOps.addf (a i) (FloatOps.mulf (w i) (FloatOps.subf (b i) (a i)))

/-! ## The body on one block -/

/-- The body's one load/store rectangle starts at the block's origin. -/
theorem origin_eq : (![0, 0] : Fin 2 → Nat) = fun _ => 0 := funext fun a => by fin_cases a <;> rfl

/-- What the body leaves in the output block, for ANY three input blocks: at every index of the block,
    the first block plus the third times (the second minus the first). Its one store covers the block from the origin,
    its loads read the whole blocks, and its shape casts are between equal shapes. -/
theorem block_lerp (x0 x1 x2 : Vec F S8192x64 .f32) :
    out0_3 x0 x1 x2 = fun y => FloatOps.addf (x0 y) (FloatOps.mulf (x2 y) (FloatOps.subf (x1 y) (x0 y))) := by
  unfold out0_3
  rw [View.canon_unit_zero origin_eq]
  simp only [View.ld_unit_zero (S := S8192x64) origin_eq]
  rw [Value.lay3_0_eq x0 x2 x1]
  simp only [shapeCast_self]
  funext y
  rfl

/-! ## The windows move together, and their blocks tile the array -/

/-- The printed index maps, decided over the 256 grid points: at point `t` every window is on block row `t`, block
    column 0. -/
theorem index_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- An index of the output array is in point `t`'s block iff each coordinate is in the block's range on its axis. -/
theorem mem_block (t : Fin cfg0.N) (i : S2097152x64.Idx) :
    i ∈ ((cfg0.win 3).blk t).view.set ↔ ∀ a : Fin 2, win0_3.index t a * S8192x64.size a ≤ (i a).val ∧ (i a).val < win0_3.index t a * S8192x64.size a + S8192x64.size a := by
  show i ∈ ((View.whole main_v73).slice (win0_3.rect t)).set ↔ _
  rw [View.set_slice_whole, Rect.mem_set_unit]
  exact Iff.rfl

/-- EVERY index of the output array is in some point's block: row `r` is in block `r / 8192`, and a block has all
    64 columns. -/
theorem covered (i : S2097152x64.Idx) :
    ∃ t : Fin cfg0.N, (cfg0.win 3).flush t = true ∧ i ∈ ((cfg0.win 3).blk t).view.set := by
  have hi0 : (i 0).val < 2097152 := (i 0).isLt
  have hi1 : (i 1).val < 64 := (i 1).isLt
  have hN : cfg0.N = 256 := rfl
  let t : Fin cfg0.N := ⟨(i 0).val / 8192, by rw [hN]; omega⟩
  have ht : t.val = (i 0).val / 8192 := rfl
  obtain ⟨-, -, -, -, -, -, q0, q1⟩ := index_rows t
  refine ⟨t, flush0_3 t, ?_⟩
  rw [mem_block]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 64 ≤ (i 1).val ∧ (i 1).val < win0_3.index t (1 : Fin 2) * 64 + 64; omega

/-! ## What each point writes back, and the array after the run -/

/-- WHAT POINT `t` WRITES BACK is block `t` of `lerp` of the three arrays as the region finds them: the three input
    blocks at `t` are the arrays read at the same array index as the output's block (the windows move together). -/
theorem flushed_lerp (c : Dev nD) (t : Fin cfg0.N) :
    (dats m 0 c).flushed 3 t = ((cfg0.win 3).blk t).view.read (Elt F) (lerp (V m c main_v70) (V m c main_v71) (V m c main_v72)) := by
  refine (Value.flushed3 m c t).trans ?_
  rw [block_lerp (iblk m c 0 t) (iblk m c 1 t) (iblk m c 2 t)]
  obtain ⟨a0, a1, b0, b1, w0, w1, o0, o1⟩ := index_rows t
  funext j
  show FloatOps.addf (V m c main_v70 (((cfg0.win 0).blk t).view.emb j)) (FloatOps.mulf (V m c main_v72 (((cfg0.win 2).blk t).view.emb j)) (FloatOps.subf (V m c main_v71 (((cfg0.win 1).blk t).view.emb j)) (V m c main_v70 (((cfg0.win 0).blk t).view.emb j))))
    = FloatOps.addf (V m c main_v70 (((cfg0.win 3).blk t).view.emb j)) (FloatOps.mulf (V m c main_v72 (((cfg0.win 3).blk t).view.emb j)) (FloatOps.subf (V m c main_v71 (((cfg0.win 3).blk t).view.emb j)) (V m c main_v70 (((cfg0.win 3).blk t).view.emb j))))
  have h0 : ((cfg0.win 0).blk t).view.emb j = ((cfg0.win 3).blk t).view.emb j := by
    funext a; apply Fin.ext
    match a with
    | ⟨0, _⟩ => show win0_0.index t (0 : Fin 2) * 8192 + 1 * (j 0).val = win0_3.index t (0 : Fin 2) * 8192 + 1 * (j 0).val; omega
    | ⟨1, _⟩ => show win0_0.index t (1 : Fin 2) * 64 + 1 * (j 1).val = win0_3.index t (1 : Fin 2) * 64 + 1 * (j 1).val; omega
  have h1 : ((cfg0.win 1).blk t).view.emb j = ((cfg0.win 3).blk t).view.emb j := by
    funext a; apply Fin.ext
    match a with
    | ⟨0, _⟩ => show win0_1.index t (0 : Fin 2) * 8192 + 1 * (j 0).val = win0_3.index t (0 : Fin 2) * 8192 + 1 * (j 0).val; omega
    | ⟨1, _⟩ => show win0_1.index t (1 : Fin 2) * 64 + 1 * (j 1).val = win0_3.index t (1 : Fin 2) * 64 + 1 * (j 1).val; omega
  have h2 : ((cfg0.win 2).blk t).view.emb j = ((cfg0.win 3).blk t).view.emb j := by
    funext a; apply Fin.ext
    match a with
    | ⟨0, _⟩ => show win0_2.index t (0 : Fin 2) * 8192 + 1 * (j 0).val = win0_3.index t (0 : Fin 2) * 8192 + 1 * (j 0).val; omega
    | ⟨1, _⟩ => show win0_2.index t (1 : Fin 2) * 64 + 1 * (j 1).val = win0_3.index t (1 : Fin 2) * 64 + 1 * (j 1).val; omega
  rw [h0, h1, h2]

/-- THE OUTPUT ARRAY after the run is `lerp` of the three arrays the kernel reads: every point writes its block of it
    (`flushed_lerp`) and the blocks cover the array (`covered`). -/
theorem final3 (c : Dev nD) :
    (dats m 0 c).arrAt 3 cfg0.N = lerp (V m c main_v70) (V m c main_v71) (V m c main_v72) :=
  (dats m 0 c).arrAt_eq_of_cover 3 (lerp (V m c main_v70) (V m c main_v71) (V m c main_v72))
    (fun t _ => flushed_lerp m c t) covered

/-! ## The run, read -/

/-- The run re-posted: the output array at `lerp` of the three arrays the kernel reads, the arguments unchanged. -/
theorem run : θ_run defs (onTc (τ := τ) (main (F := F))) ⟨m, fun _ => 0, ρ⟩ fun r => ∀ c : Dev nD,
      r.2.mem ((c : Thread nD τ).loc main_v73) = lerp (V m c main_v70) (V m c main_v71) (V m c main_v72)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final3 m c), (h c).2⟩) (Value.run_blocks m ρ)

end Cert.KernelIdeal.Arr

end
-- ==== Proof.KerStages.lean ====
/-
  The three arrays the idealized kernel's one pallas_call reads, as compositions of named stages, each a whole-array
  function of the two inputs x : f32[2097152] and tab : f32[16, 524288, 4], laid out [point, level]:

    pos x    [b, l] = clip(x b) · float(res l − 1)          the position of point b along level l
    left x   = int(floor (pos x)),   right x = min(left x + 1, res − 1),   frac x = pos x − float(left x)
    row i    [b, l] = the table row of vertex i [b, l] at level l (multiply, xor, the floored remainder by 2¹⁹, the wrap)
    emb tab i [b, l, f] = tab at (level l, row i [b, l], f)   (a gather at the pairs (level, row))
    e0 x tab [b, 4 l + f] = emb tab (left x) [b, l, f]
    e1 x tab [b, 4 l + f] = emb tab (right x) [b, l, f]
    w  x     [b, 4 l + f] = frac x [b, l]

  and: the contents the region finds in the three window arrays are 'e0V', 'e1V' of the two argument arrays and 'wV' of
  the first.
-/
import proofs.«139522_j19645180412085_1_alg».proof.Proof.Gen.KernelIdeal.Frame
import Idealize.ShloMosaic.Lib.StableHlo.Run

noncomputable section

namespace Cert.KernelIdeal.Stages

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The levels' resolutions, as 32-bit words. -/
def resV : IVec S16 32 := fun i => lit0 (S16.rowMajor i)

/-- res − 1, level by level. -/
def resM1V : IVec S16 32 := subi resV (broadcastInDim S16 ![] bcast_S_S16 (constantI S_ 32 1#32))

/-- A scalar word at every [point, level]. -/
abbrev splatI {w : Nat} (v : IVec S_ w) : IVec S2097152x16 w := broadcastInDim S2097152x16 ![] bcast_S_S2097152x16 v

/-- A per-level vector at every [point, level]. -/
abbrev perLevel {α : Type} (v : S16.Idx → α) : S2097152x16.Idx → α :=
  broadcastInDim S2097152x16 ![0, 1] bcast_S1x16_S2097152x16_0_1 (broadcastInDim S1x16 ![1] bcast_S16_S1x16_1 v)

/-- clip(x, 0, 1), point by point. -/
def clipV (x : FVec F S2097152 .f32) : FVec F S2097152 .f32 :=
  minimumf (broadcastInDim S2097152 ![] bcast_S_S2097152 (id (constant S_ .f32 0x3F800000#32)))
    (maximumf (broadcastInDim S2097152 ![] bcast_S_S2097152 (id (constant S_ .f32 0x00000000#32))) x)

/-- The position of every point along every level. -/
def posV (x : FVec F S2097152 .f32) : FVec F S2097152x16 .f32 :=
  mulf (broadcastInDim S2097152x16 ![0, 1] bcast_S2097152x1_S2097152x16_0_1 (broadcastInDim S2097152x1 ![0] bcast_S2097152_S2097152x1_0 (clipV x)))
    (perLevel (sitofp .f32 resM1V))

/-- The left vertex. -/
def leftV (x : FVec F S2097152 .f32) : IVec S2097152x16 32 := fptosi 32 (Host.floor (posV x))

/-- The right vertex. -/
def rightV (x : FVec F S2097152 .f32) : IVec S2097152x16 32 :=
  minsi (addi (leftV x) (splatI (constantI S_ 32 1#32))) (perLevel resM1V)

/-- The interpolation weight. -/
def fracV (x : FVec F S2097152 .f32) : FVec F S2097152x16 .f32 := subf (posV x) (sitofp .f32 (leftV x))

/-- level · p₂ at every [point, level]. -/
def lvlMixV : IVec S2097152x16 32 :=
  broadcastInDim S2097152x16 ![0, 1] bcast_S1x16_S2097152x16_0_1
    (muli (broadcastInDim S1x16 ![1] bcast_S16_S1x16_1 (iotaInDim S16 32 0)) (broadcastInDim S1x16 ![] bcast_S_S1x16 (constantI S_ 32 19349663#32)))

/-- (i · p₁) xor (level · p₂). -/
def mixV (i : IVec S2097152x16 32) : IVec S2097152x16 32 := xori (muli i (splatI (constantI S_ 32 73856093#32))) lvlMixV

/-- The floored remainder, its divisor: n, or 1 where n is 0 (on the rank-0 word). -/
def remDV (n : IVec S_ 32) : IVec S_ 32 := select (cmpi .eq (id n) (constantI S_ 32 0#32)) (constantI S_ 32 1#32) (id n)

/-- The floored remainder, first the truncated remainder by that divisor. -/
def remRV (a : IVec S2097152x16 32) (n : IVec S_ 32) : IVec S2097152x16 32 := Host.remsi a (splatI (remDV n))

/-- The floored remainder: the truncated remainder, moved by the divisor where it is not 0 and its sign is not the divisor's. -/
def remV (a : IVec S2097152x16 32) (n : IVec S_ 32) : IVec S2097152x16 32 :=
  select
    (andi (cmpi .ne (cmpi .slt (remRV a n) (splatI (constantI S_ 32 0#32))) (splatI (cmpi .slt (remDV n) (constantI S_ 32 0#32))))
      (cmpi .ne (remRV a n) (splatI (constantI S_ 32 0#32))))
    (addi (remRV a n) (splatI (remDV n))) (remRV a n)

/-- The hash before the wrap: the remainder of the mix by the table length. -/
def hashV (i : IVec S2097152x16 32) : IVec S2097152x16 32 := remV (mixV i) (constantI S_ 32 524288#32)

/-- The table row: the hash, wrapped as a negative index would be. -/
def rowV (i : IVec S2097152x16 32) : IVec S2097152x16 32 :=
  select (cmpi .slt (hashV i) (splatI (constantI S_ 32 0#32))) (addi (hashV i) (splatI (constantI S_ 32 524288#32))) (hashV i)

/-- The level's number as a row, wrapped as a negative index would be. -/
def lvlV : IVec S1x16 32 :=
  select (cmpi .slt (broadcastInDim S1x16 ![1] bcast_S16_S1x16_1 (iotaInDim S16 32 0)) (broadcastInDim S1x16 ![] bcast_S_S1x16 (constantI S_ 32 0#32)))
    (addi (broadcastInDim S1x16 ![1] bcast_S16_S1x16_1 (iotaInDim S16 32 0)) (broadcastInDim S1x16 ![] bcast_S_S1x16 (constantI S_ 32 16#32)))
    (broadcastInDim S1x16 ![1] bcast_S16_S1x16_1 (iotaInDim S16 32 0))

/-- A [point, level] array with a trailing unit axis. -/
abbrev addUnit {α : Type} (v : S2097152x16.Idx → α) : S2097152x16x1.Idx → α :=
  broadcastInDim S2097152x16x1 ![0, 1] bcast_S2097152x16_S2097152x16x1_0_1 v

/-- The gather's start indices: the pair (level, row) at every [point, level]. -/
def startV (i : IVec S2097152x16 32) : IVec S2097152x16x2 32 :=
  concatenate S2097152x16x2 2
    [⟨S2097152x16x1, addUnit (broadcastInDim S2097152x16 ![0, 1] bcast_S1x16_S2097152x16_0_1 lvlV)⟩, ⟨S2097152x16x1, addUnit (rowV i)⟩]
    concatenates_S2097152x16x1_S2097152x16x1_S2097152x16x2_d2

/-- The embedding of vertex i: the table's rows at the pairs (level, row). -/
def embV (tab : FVec F S16x524288x4 .f32) (i : IVec S2097152x16 32) : FVec F S2097152x16x4 .f32 :=
  Host.gather gather_S16x524288x4_S2097152x16x2_S2097152x16x4_2_01_n_n_01_2_114 tab (startV i)

/-- A [point, level, 1] array along the four features. -/
abbrev alongF {α : Type} (v : S2097152x16x1.Idx → α) : S2097152x16x4.Idx → α :=
  broadcastInDim S2097152x16x4 ![0, 1, 2] bcast_S2097152x16x1_S2097152x16x4_0_1_2 v

/-- The left vertices' embeddings as [point, level · 4 + feature]: the first array the kernel reads. -/
def e0V (x : FVec F S2097152 .f32) (tab : FVec F S16x524288x4 .f32) : FVec F S2097152x64 .f32 :=
  shapeCast S2097152x64 (embV tab (leftV x)) shapeCasts_S2097152x16x4_S2097152x64

/-- The right vertices' embeddings as [point, level · 4 + feature]: the second array the kernel reads. -/
def e1V (x : FVec F S2097152 .f32) (tab : FVec F S16x524288x4 .f32) : FVec F S2097152x64 .f32 :=
  shapeCast S2097152x64 (embV tab (rightV x)) shapeCasts_S2097152x16x4_S2097152x64

/-- The interpolation weight along the four features, as [point, level · 4 + feature]: the third array the kernel reads. -/
def wV (x : FVec F S2097152 .f32) : FVec F S2097152x64 .f32 :=
  shapeCast S2097152x64 (alongF (addUnit (fracV x))) shapeCasts_S2097152x16x4_S2097152x64

/-- The results of operations read INSIDE a list of operands (a concatenation's), where one rewriting pass does not reach:
    the same result lemmas, one rewrite at a time. -/
local macro "results_inside" : tactic =>
  `(tactic| repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)))

/-! ## The host operations before the region, stretch by stretch

The region finds the device's contents after seven stretches of host operations. Each stretch is read on its own, over ANY
contents `W` before it: what it leaves in the buffers later stretches read, as a stage of what it found in the buffers it
reads, and that it leaves the other buffers read later as they were. -/

set_option maxRecDepth 8192 in
set_option maxHeartbeats 4000000 in
/-- The constants and the clip: the clipped points, the resolutions, the level numbers; the table is not written. -/
theorem upto_clip (W : Valuation τ sig (Elt F)) :
    after (hostOps0 ++ hostOps0_1) W (Proc.devRef .tc main_v1) = clipV (W (Proc.devRef .tc main_arg0))
    ∧ after (hostOps0 ++ hostOps0_1) W (Proc.devRef .tc main_c) = resV
    ∧ after (hostOps0 ++ hostOps0_1) W (Proc.devRef .tc main_v0) = iotaInDim S16 32 0
    ∧ after (hostOps0 ++ hostOps0_1) W (Proc.devRef .tc main_arg1) = W (Proc.devRef .tc main_arg1) := by
  refine ⟨?_, ?_, ?_, ?_⟩
  all_goals simp only [hostOps0, hostOps0_1, List.cons_append, List.nil_append]
  all_goals after_results_simp
  all_goals rfl

set_option maxRecDepth 8192 in
set_option maxHeartbeats 4000000 in
/-- The vertices: the right vertex, the weight, the left vertex's mix and the table length, from the clipped points, the
    resolutions and the level numbers. -/
theorem stretch_vertices (W : Valuation τ sig (Elt F)) (x : FVec F S2097152 .f32)
    (hc : W (Proc.devRef .tc main_c) = resV) (hx : W (Proc.devRef .tc main_v1) = clipV x)
    (hl : W (Proc.devRef .tc main_v0) = iotaInDim S16 32 0) :
    after hostOps0_2 W (Proc.devRef .tc main_v18) = rightV x
    ∧ after hostOps0_2 W (Proc.devRef .tc main_v20) = fracV x
    ∧ after hostOps0_2 W (Proc.devRef .tc main_v27) = mixV (leftV x)
    ∧ after hostOps0_2 W (Proc.devRef .tc main_c_6) = constantI S_ 32 524288#32
    ∧ after hostOps0_2 W (Proc.devRef .tc main_v0) = iotaInDim S16 32 0
    ∧ after hostOps0_2 W (Proc.devRef .tc main_arg1) = W (Proc.devRef .tc main_arg1) := by
  refine ⟨?_, ?_, ?_, ?_, ?_, ?_⟩
  · dsimp only [hostOps0_2]; after_results_simp; rw [hc, hx]; rfl
  · dsimp only [hostOps0_2]; after_results_simp; rw [hc, hx]; rfl
  · dsimp only [hostOps0_2]; after_results_simp; rw [hc, hx, hl]; rfl
  · dsimp only [hostOps0_2]; after_results_simp; try rfl
  · dsimp only [hostOps0_2]; after_results_simp; exact hl
  · dsimp only [hostOps0_2]; after_results_simp

set_option maxRecDepth 8192 in
set_option maxHeartbeats 4000000 in
/-- The left vertex's hash: the floored remainder of its mix by the table length; the buffers read later are not written. -/
theorem stretch_rem_left (W : Valuation τ sig (Elt F)) (a : IVec S2097152x16 32) (n : IVec S_ 32)
    (ha : W (Proc.devRef .tc main_v27) = a) (hn : W (Proc.devRef .tc main_c_6) = n) :
    after hostOps0_3 W (Proc.devRef .tc main_v28) = remV a n
    ∧ after hostOps0_3 W (Proc.devRef .tc main_v18) = W (Proc.devRef .tc main_v18)
    ∧ after hostOps0_3 W (Proc.devRef .tc main_v20) = W (Proc.devRef .tc main_v20)
    ∧ after hostOps0_3 W (Proc.devRef .tc main_v0) = W (Proc.devRef .tc main_v0)
    ∧ after hostOps0_3 W (Proc.devRef .tc main_arg1) = W (Proc.devRef .tc main_arg1) := by
  subst ha hn
  refine ⟨?_, ?_, ?_, ?_, ?_⟩
  · dsimp only [hostOps0_3]; after_results_simp; rfl
  · dsimp only [hostOps0_3]; after_results_simp
  · dsimp only [hostOps0_3]; after_results_simp
  · dsimp only [hostOps0_3]; after_results_simp
  · dsimp only [hostOps0_3]; after_results_simp

set_option maxRecDepth 8192 in
set_option maxHeartbeats 4000000 in
/-- The right vertex's mix and the table length; the buffers read later are not written. -/
theorem stretch_mix_right (W : Valuation τ sig (Elt F)) (r : IVec S2097152x16 32)
    (hr : W (Proc.devRef .tc main_v18) = r) (hl : W (Proc.devRef .tc main_v0) = iotaInDim S16 32 0) :
    after hostOps0_4 W (Proc.devRef .tc main_v35) = mixV r
    ∧ after hostOps0_4 W (Proc.devRef .tc main_c_9) = constantI S_ 32 524288#32
    ∧ after hostOps0_4 W (Proc.devRef .tc main_v28) = W (Proc.devRef .tc main_v28)
    ∧ after hostOps0_4 W (Proc.devRef .tc main_v20) = W (Proc.devRef .tc main_v20)
    ∧ after hostOps0_4 W (Proc.devRef .tc main_v0) = W (Proc.devRef .tc main_v0)
    ∧ after hostOps0_4 W (Proc.devRef .tc main_arg1) = W (Proc.devRef .tc main_arg1) := by
  subst hr
  refine ⟨?_, ?_, ?_, ?_, ?_, ?_⟩
  · dsimp only [hostOps0_4]; after_results_simp; rw [hl]; rfl
  · dsimp only [hostOps0_4]; after_results_simp; try rfl
  · dsimp only [hostOps0_4]; after_results_simp
  · dsimp only [hostOps0_4]; after_results_simp
  · dsimp only [hostOps0_4]; after_results_simp
  · dsimp only [hostOps0_4]; after_results_simp

set_option maxRecDepth 8192 in
set_option maxHeartbeats 4000000 in
/-- The right vertex's hash: the floored remainder of its mix by the table length; the buffers read later are not written. -/
theorem stretch_rem_right (W : Valuation τ sig (Elt F)) (a : IVec S2097152x16 32) (n : IVec S_ 32)
    (ha : W (Proc.devRef .tc main_v35) = a) (hn : W (Proc.devRef .tc main_c_9) = n) :
    after hostOps0_5 W (Proc.devRef .tc main_v36) = remV a n
    ∧ after hostOps0_5 W (Proc.devRef .tc main_v28) = W (Proc.devRef .tc main_v28)
    ∧ after hostOps0_5 W (Proc.devRef .tc main_v20) = W (Proc.devRef .tc main_v20)
    ∧ after hostOps0_5 W (Proc.devRef .tc main_v0) = W (Proc.devRef .tc main_v0)
    ∧ after hostOps0_5 W (Proc.devRef .tc main_arg1) = W (Proc.devRef .tc main_arg1) := by
  subst ha hn
  refine ⟨?_, ?_, ?_, ?_, ?_⟩
  · dsimp only [hostOps0_5]; after_results_simp; rfl
  · dsimp only [hostOps0_5]; after_results_simp
  · dsimp only [hostOps0_5]; after_results_simp
  · dsimp only [hostOps0_5]; after_results_simp
  · dsimp only [hostOps0_5]; after_results_simp

set_option maxRecDepth 8192 in
set_option maxHeartbeats 4000000 in
/-- The last stretch: the three window arrays, from the level numbers, the two hashes, the weight and the table. -/
theorem stretch_windows (W : Valuation τ sig (Elt F)) (iL iR : IVec S2097152x16 32) (fr : FVec F S2097152x16 .f32)
    (tab : FVec F S16x524288x4 .f32)
    (hl : W (Proc.devRef .tc main_v0) = iotaInDim S16 32 0) (hL : W (Proc.devRef .tc main_v28) = hashV iL)
    (hR : W (Proc.devRef .tc main_v36) = hashV iR) (hf : W (Proc.devRef .tc main_v20) = fr) (ht : W (Proc.devRef .tc main_arg1) = tab) :
    after hostOps0_6 W (Proc.devRef .tc main_v70) = shapeCast S2097152x64 (embV tab iL) shapeCasts_S2097152x16x4_S2097152x64
    ∧ after hostOps0_6 W (Proc.devRef .tc main_v71) = shapeCast S2097152x64 (embV tab iR) shapeCasts_S2097152x16x4_S2097152x64
    ∧ after hostOps0_6 W (Proc.devRef .tc main_v72) = shapeCast S2097152x64 (alongF (addUnit fr)) shapeCasts_S2097152x16x4_S2097152x64 := by
  subst hf ht
  refine ⟨?_, ?_, ?_⟩
  · dsimp only [hostOps0_6]; after_results_simp; results_inside; rw [hl, hL]; rfl
  · dsimp only [hostOps0_6]; after_results_simp; results_inside; rw [hl, hR]; rfl
  · dsimp only [hostOps0_6]; after_results_simp; rfl

/-! ## The stretches in order -/

/-- The device's contents when the region is entered, from contents `W` at launch: the seven stretches in order. -/
def entry (W : Valuation τ sig (Elt F)) : Valuation τ sig (Elt F) :=
  after hostOps0_6 (after hostOps0_5 (after hostOps0_4 (after hostOps0_3 (after hostOps0_2 (after (hostOps0 ++ hostOps0_1) W)))))

/-- The three window arrays at region entry, from ANY launch contents: each stretch's reading, chained. -/
theorem entry_windows (W : Valuation τ sig (Elt F)) :
    entry W (Proc.devRef .tc main_v70) = e0V (W (Proc.devRef .tc main_arg0)) (W (Proc.devRef .tc main_arg1))
    ∧ entry W (Proc.devRef .tc main_v71) = e1V (W (Proc.devRef .tc main_arg0)) (W (Proc.devRef .tc main_arg1))
    ∧ entry W (Proc.devRef .tc main_v72) = wV (W (Proc.devRef .tc main_arg0)) := by
  obtain ⟨a1, a2, a3, a4⟩ := upto_clip W
  obtain ⟨b1, b2, b3, b4, b5, b6⟩ := stretch_vertices (after (hostOps0 ++ hostOps0_1) W) (W (Proc.devRef .tc main_arg0)) a2 a1 a3
  obtain ⟨c1, c2, c3, c4, c5⟩ := stretch_rem_left (after hostOps0_2 (after (hostOps0 ++ hostOps0_1) W)) _ _ b3 b4
  obtain ⟨d1, d2, d3, d4, d5, d6⟩ := stretch_mix_right (after hostOps0_3 (after hostOps0_2 (after (hostOps0 ++ hostOps0_1) W))) _
    (c2.trans b1) (c4.trans b5)
  obtain ⟨e1, e2, e3, e4, e5⟩ := stretch_rem_right
    (after hostOps0_4 (after hostOps0_3 (after hostOps0_2 (after (hostOps0 ++ hostOps0_1) W)))) _ _ d1 d2
  exact stretch_windows
    (after hostOps0_5 (after hostOps0_4 (after hostOps0_3 (after hostOps0_2 (after (hostOps0 ++ hostOps0_1) W)))))
    (leftV (W (Proc.devRef .tc main_arg0))) (rightV (W (Proc.devRef .tc main_arg0))) (fracV (W (Proc.devRef .tc main_arg0))) (W (Proc.devRef .tc main_arg1))
    (e4.trans (d5.trans (c4.trans b5))) (e2.trans (d3.trans c1)) e1 (e3.trans (d4.trans (c3.trans b2)))
    (e5.trans (d6.trans (c5.trans (b6.trans a4))))

/-- The contents the region finds are `entry` of the launch contents: the host operations' list is the seven stretches. -/
theorem V_eq_entry (c : Dev nD) (b : Ref sig .tc) : V m c b = entry (fun b => m (c, b)) b := by
  unfold entry
  dsimp only [V]
  rw [List.flatten_cons, List.flatten_cons, List.flatten_cons, List.flatten_cons, List.flatten_cons, List.flatten_cons,
    List.flatten_cons, List.flatten_nil, List.append_nil, ← List.append_assoc, after_append, after_append, after_append,
    after_append, after_append]

/-- The first window's array as the region finds it: the left vertices' embeddings. -/
theorem V_v70 (c : Dev nD) :
    V m c main_v70 = e0V (m ((c : Thread nD τ).loc main_arg0)) (m ((c : Thread nD τ).loc main_arg1)) :=
  (V_eq_entry m c main_v70).trans (entry_windows (fun b => m (c, b))).1

/-- The second window's array as the region finds it: the right vertices' embeddings. -/
theorem V_v71 (c : Dev nD) :
    V m c main_v71 = e1V (m ((c : Thread nD τ).loc main_arg0)) (m ((c : Thread nD τ).loc main_arg1)) :=
  (V_eq_entry m c main_v71).trans (entry_windows (fun b => m (c, b))).2.1

/-- The third window's array as the region finds it: the interpolation weight along the features. -/
theorem V_v72 (c : Dev nD) : V m c main_v72 = wV (m ((c : Thread nD τ).loc main_arg0)) :=
  (V_eq_entry m c main_v72).trans (entry_windows (fun b => m (c, b))).2.2

end Cert.KernelIdeal.Stages

end
-- ==== Proof.Spec.lean ====
/-
  The arithmetic of one cell of the multiresolution hash grid, on scalars, at any float instance, and the one law of
  the extended reals the certificate needs.

  For a point x and a level of resolution word r (the level's number of grid vertices) the two programs compute
  the position t = clip(x, 0, 1) · float(r − 1) along the level, its left vertex i₀ = int(floor t), its right vertex
  i₁ = min(i₀ + 1, r − 1) and the weight w = t − float(i₀); each vertex i is hashed to a table row
  ((i · p₁) xor (level · p₂)) mod 2¹⁹ (jnp's remainder: the truncated remainder moved into the divisor's sign), the row
  and the level's number each passed through the "negative index counts from the end" select that array indexing adds.
  Both programs are these operations, laid out [point, level] in one and [level, point] in the other.

  The law: for REAL a, b, w,  a + w · (b − a) = a · (1 − w) + b · w.  On the extended reals it fails at infinities
  (⊤ + w · (b − ⊤) is ⊥ for w > 0 while ⊤ · (1 − w) + b · w is ⊤ for w < 1), which is why the precondition is used.
-/
import Idealize.ShloMosaic.PureOps.Ideal
import Idealize.ShloMosaic.Lib.ValueIdx

noncomputable section

namespace Cert.Spec

open Idealize.ShloMosaic Idealize.ShloMosaic.ValueIdx

section Cell
variable {F : FTy → Type} [FloatOps F]

/-- clip(x, 0, 1) = min(1, max(0, x)), the bounds the f32 words of 0.0 and 1.0. -/
def clipS (x : F .f32) : F .f32 :=
  FloatOps.minimumf (FloatOps.ofBits .f32 0x3F800000#32) (FloatOps.maximumf (FloatOps.ofBits .f32 0x00000000#32) x)

/-- The position along a level with r vertices: clip(x) · float(r − 1). -/
def posS (x : F .f32) (r : BitVec 32) : F .f32 := FloatOps.mulf (clipS x) (FloatOps.sitofp .f32 (IntOp.subi r 1#32))

/-- The left vertex: int(floor t). -/
def leftS (t : F .f32) : BitVec 32 := FloatOps.fptosi 32 (FloatOps.hostUnary .floor t)

/-- The right vertex: min(left + 1, r − 1). -/
def rightS (t : F .f32) (r : BitVec 32) : BitVec 32 := IntOp.minsi (IntOp.addi (leftS t) 1#32) (IntOp.subi r 1#32)

/-- The interpolation weight: t − float(left). -/
def fracS (t : F .f32) : F .f32 := FloatOps.subf t (FloatOps.sitofp .f32 (leftS t))

end Cell

/-- jnp's remainder of a by n on 32-bit words: the divisor is n, or 1 where n is 0; the truncated remainder r, moved by the
    divisor where r is not 0 and its sign differs from the divisor's. -/
def remS (a n : BitVec 32) : BitVec 32 :=
  Scalar.select
    (IntOp.andi
      (IntOp.cmpi .ne (IntOp.cmpi .slt (IntOp.remsi .host a (Scalar.select (IntOp.cmpi .eq n 0#32) 1#32 n)) 0#32)
        (IntOp.cmpi .slt (Scalar.select (IntOp.cmpi .eq n 0#32) 1#32 n) 0#32))
      (IntOp.cmpi .ne (IntOp.remsi .host a (Scalar.select (IntOp.cmpi .eq n 0#32) 1#32 n)) 0#32))
    (IntOp.addi (IntOp.remsi .host a (Scalar.select (IntOp.cmpi .eq n 0#32) 1#32 n)) (Scalar.select (IntOp.cmpi .eq n 0#32) 1#32 n))
    (IntOp.remsi .host a (Scalar.select (IntOp.cmpi .eq n 0#32) 1#32 n))

/-- Array indexing's treatment of a negative index on an axis of extent n: a + n where a < 0, else a. -/
def wrapS (n a : BitVec 32) : BitVec 32 := Scalar.select (IntOp.cmpi .slt a 0#32) (IntOp.addi a n) a

/-- The table row of vertex i at level word lev. -/
def rowS (i lev : BitVec 32) : BitVec 32 :=
  wrapS 524288#32 (remS (IntOp.xori (IntOp.muli i 73856093#32) (IntOp.muli lev 19349663#32)) 524288#32)

/-- The levels' numbers of vertices (16 · 64^(l/15), rounded), as 32-bit words. -/
def resS : Fin 16 → BitVec 32 := fun
  | 0 => 16#32 | 1 => 21#32 | 2 => 28#32 | 3 => 37#32 | 4 => 49#32 | 5 => 64#32 | 6 => 84#32 | 7 => 111#32
  | 8 => 147#32 | 9 => 194#32 | 10 => 256#32 | 11 => 338#32 | 12 => 446#32 | 13 => 588#32 | 14 => 776#32 | 15 => 1024#32
  | _ => 0#32

/-- Level l's number as a 32-bit word. -/
def lvlS (l : Fin 16) : BitVec 32 := BitVec.ofNat 32 l.val

/-- The table's entry for vertex i at level l and feature f: the (wrapped) level and the row, each read as a signed
    integer and clamped into its axis, as a gather clamps its start indices. -/
def cellS {α : Type} (tab : (⟨3, ![16, 524288, 4]⟩ : Shape).Idx → α) (i : BitVec 32) (l : Fin 16) (f : Fin 4) : α :=
  tab (ix3 (⟨min (wrapS 16#32 (lvlS l)).toInt.toNat (16 - 1), by omega⟩ : Fin 16)
    (⟨min (rowS i (lvlS l)).toInt.toNat (524288 - 1), by omega⟩ : Fin 524288) f)

/-! ## At the ideal instance -/

/-- The f32 word of 1.0 denotes 1. -/
theorem ofBits_one : Ideal.ofBits .f32 0x3F800000#32 = (1 : EReal) := by
  simp [Ideal.ofBits, Ideal.ieee, -EReal.coe_mul]; norm_num

/-- The f32 word of 0.0 denotes 0. -/
theorem ofBits_zero : Ideal.ofBits .f32 0x00000000#32 = (0 : EReal) := by
  simp [Ideal.ofBits, Ideal.ieee]

/-- The position of a real point is real. -/
theorem posS_real (x : ℝ) (r : BitVec 32) : ∃ t : ℝ, posS (F := Ideal) ((x : ℝ) : EReal) r = ((t : ℝ) : EReal) := by
  refine ⟨min 1 (max 0 x) * ((IntOp.subi r 1#32).toInt : ℝ), ?_⟩
  show (min (Ideal.ofBits .f32 0x3F800000#32) (max (Ideal.ofBits .f32 0x00000000#32) ((x : ℝ) : EReal))) * (((IntOp.subi r 1#32).toInt : ℝ) : EReal) = _
  have hmax : max (0 : EReal) ((x : ℝ) : EReal) = ((max 0 x : ℝ) : EReal) := by
    rw [← EReal.coe_zero]; exact (EReal.coe_strictMono.monotone.map_max).symm
  have hmin : min (1 : EReal) ((max 0 x : ℝ) : EReal) = ((min 1 (max 0 x) : ℝ) : EReal) := by
    rw [← EReal.coe_one]; exact (EReal.coe_strictMono.monotone.map_min).symm
  rw [ofBits_one, ofBits_zero, hmax, hmin, ← EReal.coe_mul]

/-- The weight at a real position is real. -/
theorem fracS_real (t : ℝ) : ∃ w : ℝ, fracS (F := Ideal) ((t : ℝ) : EReal) = ((w : ℝ) : EReal) := by
  refine ⟨t - ((leftS (F := Ideal) ((t : ℝ) : EReal)).toInt : ℝ), ?_⟩
  show ((t : ℝ) : EReal) - (((leftS (F := Ideal) ((t : ℝ) : EReal)).toInt : ℝ) : EReal) = _
  rw [← EReal.coe_sub]

/-- Linear interpolation in its two spellings, on real numbers inside the extended reals (the 1 the f32 word of 1.0). -/
theorem lerp_eq (a b w : ℝ) :
    ((a : ℝ) : EReal) + ((w : ℝ) : EReal) * (((b : ℝ) : EReal) - ((a : ℝ) : EReal))
      = ((a : ℝ) : EReal) * (Ideal.ofBits .f32 0x3F800000#32 - ((w : ℝ) : EReal)) + ((b : ℝ) : EReal) * ((w : ℝ) : EReal) := by
  rw [ofBits_one, ← EReal.coe_one, ← EReal.coe_sub, ← EReal.coe_sub, ← EReal.coe_mul, ← EReal.coe_mul, ← EReal.coe_mul,
    ← EReal.coe_add, ← EReal.coe_add]
  congr 1
  ring

/-- One cell's interpolation in its two spellings: for a real point and a table of real numbers, at level l and feature f,
    e₀ + w · (e₁ − e₀) = e₀ · (1 − w) + e₁ · w, where e₀, e₁ are the table's entries for the left and right vertices and w the
    weight (all three real: the position of a real point is real, so is its weight, and the entries are the table's). -/
theorem cell_lerp (x : ℝ) (tab : (⟨3, ![16, 524288, 4]⟩ : Shape).Idx → EReal) (htab : ∀ i, ∃ r : ℝ, tab i = ((r : ℝ) : EReal))
    (l : Fin 16) (f : Fin 4) :
    cellS tab (leftS (F := Ideal) (posS (F := Ideal) ((x : ℝ) : EReal) (resS l))) l f
        + fracS (F := Ideal) (posS (F := Ideal) ((x : ℝ) : EReal) (resS l))
          * (cellS tab (rightS (F := Ideal) (posS (F := Ideal) ((x : ℝ) : EReal) (resS l)) (resS l)) l f
              - cellS tab (leftS (F := Ideal) (posS (F := Ideal) ((x : ℝ) : EReal) (resS l))) l f)
      = cellS tab (leftS (F := Ideal) (posS (F := Ideal) ((x : ℝ) : EReal) (resS l))) l f
          * (Ideal.ofBits .f32 0x3F800000#32 - fracS (F := Ideal) (posS (F := Ideal) ((x : ℝ) : EReal) (resS l)))
        + cellS tab (rightS (F := Ideal) (posS (F := Ideal) ((x : ℝ) : EReal) (resS l)) (resS l)) l f
          * fracS (F := Ideal) (posS (F := Ideal) ((x : ℝ) : EReal) (resS l)) := by
  obtain ⟨t, ht⟩ := posS_real x (resS l)
  rw [ht]
  obtain ⟨w, hw⟩ := fracS_real t
  obtain ⟨a, ha⟩ := htab (ix3 (⟨min (wrapS 16#32 (lvlS l)).toInt.toNat (16 - 1), by omega⟩ : Fin 16)
    (⟨min (rowS (leftS (F := Ideal) ((t : ℝ) : EReal)) (lvlS l)).toInt.toNat (524288 - 1), by omega⟩ : Fin 524288) f)
  obtain ⟨b, hb⟩ := htab (ix3 (⟨min (wrapS 16#32 (lvlS l)).toInt.toNat (16 - 1), by omega⟩ : Fin 16)
    (⟨min (rowS (rightS (F := Ideal) ((t : ℝ) : EReal) (resS l)) (lvlS l)).toInt.toNat (524288 - 1), by omega⟩ : Fin 524288) f)
  unfold cellS
  rw [hw, ha, hb]
  exact lerp_eq a b w

end Cert.Spec

end
-- ==== Proof.KerRead2.lean ====
/-
  THE KERNEL PROGRAM'S TWO-DIMENSIONAL STAGES READ AT AN INDEX.

  Each whole-array stage of the arrays the kernel reads, laid out [point, level] — the levels' resolutions, the position
  of a point along a level, its left and right vertices, its interpolation weight, the table row of a vertex, the level's
  number as a wrapped index — is, at point b and level l, the scalar function of the same name applied to the point's
  coordinate x b and the level's resolution word: every operation in a stage is pointwise or a broadcast, and a
  broadcast read at an index is its operand read at the coordinates the broadcast keeps.

  First the broadcasts the stages use, each read at an index built from its coordinates; then the stages.
-/
import proofs.«139522_j19645180412085_1_alg».proof.Proof.KerStages
import proofs.«139522_j19645180412085_1_alg».proof.Proof.Spec
import Idealize.ShloMosaic.Lib.Pipeline.Value
import Idealize.ShloMosaic.Lib.ValueIdx

noncomputable section

namespace Cert.KernelIdeal.Stages

open Cert.KernelIdeal Cert.KernelIdeal.Gen Cert.Spec Idealize.ShloMosaic Idealize.ShloMosaic.ValueIdx

variable {F : FTy → Type} [FloatOps F]

/-! ## The broadcasts, read at an index -/

/-- A rank-0 array broadcast to any shape reads its one element everywhere. -/
theorem bcast0_apply {α : Type} {t : Shape} (h : S_.BroadcastsInDim t (![] : Fin 0 → Fin t.rank)) (v : S_.Idx → α) (j : t.Idx) :
    broadcastInDim t ![] h v j = v ix0 :=
  broadcastInDim_apply _ h v j ix0 (fun a => a.elim0)

/-- A scalar word at every [point, level] is that word. -/
theorem splatI_apply {w : Nat} (v : IVec S_ w) (j : S2097152x16.Idx) : splatI v j = v ix0 := bcast0_apply _ v j

/-- A per-level vector as a [1, 16] row reads, at column l, the vector at l. -/
theorem row_apply {α : Type} (h : S16.BroadcastsInDim S1x16 (![1] : Fin 1 → Fin S1x16.rank)) (v : S16.Idx → α) (z : Fin 1) (l : Fin 16) :
    broadcastInDim S1x16 ![1] h v (ix2 z l) = v (ix1 l) :=
  broadcastInDim_apply _ h v _ (ix1 l) (fun a => match a with | ⟨0, _⟩ => rfl)

/-- A [1, 16] row stretched along the points reads, at [b, l], the row at column l. -/
theorem stretch_apply {α : Type} (h : S1x16.BroadcastsInDim S2097152x16 (![0, 1] : Fin 2 → Fin S2097152x16.rank)) (v : S1x16.Idx → α)
    (b : Fin 2097152) (l : Fin 16) :
    broadcastInDim S2097152x16 ![0, 1] h v (ix2 b l) = v (ix2 (0 : Fin 1) l) :=
  broadcastInDim_apply _ h v _ (ix2 (0 : Fin 1) l) (fun a => match a with | ⟨0, _⟩ => rfl | ⟨1, _⟩ => rfl)

/-- A per-level vector at every [point, level] reads, at [b, l], the vector at l. -/
theorem perLevel_apply {α : Type} (v : S16.Idx → α) (b : Fin 2097152) (l : Fin 16) : perLevel v (ix2 b l) = v (ix1 l) :=
  (stretch_apply _ _ b l).trans (row_apply _ v 0 l)

/-- A per-point vector as a [2097152, 1] column, stretched along the levels, reads, at [b, l], the vector at b. -/
theorem perPoint_apply {α : Type} (h₁ : S2097152.BroadcastsInDim S2097152x1 (![0] : Fin 1 → Fin S2097152x1.rank))
    (h₂ : S2097152x1.BroadcastsInDim S2097152x16 (![0, 1] : Fin 2 → Fin S2097152x16.rank)) (v : S2097152.Idx → α)
    (b : Fin 2097152) (l : Fin 16) :
    broadcastInDim S2097152x16 ![0, 1] h₂ (broadcastInDim S2097152x1 ![0] h₁ v) (ix2 b l) = v (ix1 b) :=
  (broadcastInDim_apply _ h₂ _ (ix2 b l) (ix2 b (0 : Fin 1)) (fun a => match a with | ⟨0, _⟩ => rfl | ⟨1, _⟩ => rfl)).trans
    (broadcastInDim_apply _ h₁ v _ (ix1 b) (fun a => match a with | ⟨0, _⟩ => rfl))

/-! ## The stages, read at an index -/

/-- The row-major position of a rank-1 index is its coordinate. -/
theorem rowMajor_ix1 (l : Fin 16) : S16.rowMajor (ix1 l) = l :=
  Fin.ext (Shape.rowMajor_val_one (ix1 l))

/-- The printed table of resolutions is the specification's. -/
theorem lit0_eq : ∀ l : Fin 16, lit0 l = resS l := by decide

/-- The resolution word of level l. -/
theorem resV_apply (l : Fin 16) : resV (ix1 l) = resS l := by
  show lit0 (S16.rowMajor (ix1 l)) = resS l
  rw [rowMajor_ix1, lit0_eq]

/-- res − 1 at level l. -/
theorem resM1V_apply (l : Fin 16) : resM1V (ix1 l) = IntOp.subi (resS l) 1#32 := by
  show IntOp.subi (resV (ix1 l)) (broadcastInDim S16 ![] bcast_S_S16 (constantI S_ 32 1#32) (ix1 l)) = _
  rw [resV_apply, bcast0_apply]
  rfl

/-- clip(x, 0, 1) at point b. -/
theorem clipV_apply (x : FVec F S2097152 .f32) (b : Fin 2097152) : clipV x (ix1 b) = clipS (x (ix1 b)) := by
  show FloatOps.minimumf (broadcastInDim S2097152 ![] bcast_S_S2097152 (id (constant S_ .f32 0x3F800000#32)) (ix1 b))
    (FloatOps.maximumf (broadcastInDim S2097152 ![] bcast_S_S2097152 (id (constant S_ .f32 0x00000000#32)) (ix1 b)) (x (ix1 b))) = _
  rw [bcast0_apply, bcast0_apply]
  rfl

/-- The position of point b along level l. -/
theorem posV_apply (x : FVec F S2097152 .f32) (b : Fin 2097152) (l : Fin 16) : posV x (ix2 b l) = posS (x (ix1 b)) (resS l) := by
  show FloatOps.mulf
    (broadcastInDim S2097152x16 ![0, 1] bcast_S2097152x1_S2097152x16_0_1 (broadcastInDim S2097152x1 ![0] bcast_S2097152_S2097152x1_0 (clipV x)) (ix2 b l))
    (perLevel (sitofp .f32 resM1V) (ix2 b l)) = _
  rw [perPoint_apply, perLevel_apply, clipV_apply]
  show FloatOps.mulf (clipS (x (ix1 b))) (FloatOps.sitofp .f32 (resM1V (ix1 l))) = _
  rw [resM1V_apply]
  rfl

/-- The left vertex of point b at level l. -/
theorem leftV_apply (x : FVec F S2097152 .f32) (b : Fin 2097152) (l : Fin 16) :
    leftV x (ix2 b l) = leftS (posS (x (ix1 b)) (resS l)) := by
  show FloatOps.fptosi 32 (FloatOps.hostUnary .floor (posV x (ix2 b l))) = _
  rw [posV_apply]
  rfl

/-- The right vertex of point b at level l. -/
theorem rightV_apply (x : FVec F S2097152 .f32) (b : Fin 2097152) (l : Fin 16) :
    rightV x (ix2 b l) = rightS (posS (x (ix1 b)) (resS l)) (resS l) := by
  show IntOp.minsi (IntOp.addi (leftV x (ix2 b l)) (splatI (constantI S_ 32 1#32) (ix2 b l))) (perLevel resM1V (ix2 b l)) = _
  rw [leftV_apply, splatI_apply, perLevel_apply, resM1V_apply]
  rfl

/-- The interpolation weight of point b at level l. -/
theorem fracV_apply (x : FVec F S2097152 .f32) (b : Fin 2097152) (l : Fin 16) :
    fracV x (ix2 b l) = fracS (posS (x (ix1 b)) (resS l)) := by
  show FloatOps.subf (posV x (ix2 b l)) (FloatOps.sitofp .f32 (leftV x (ix2 b l))) = _
  rw [leftV_apply, posV_apply]
  rfl

/-- The level's number as a word, at level l. -/
theorem lvlIota_apply (l : Fin 16) : iotaInDim S16 32 0 (ix1 l) = lvlS l := rfl

/-- level · p₂ at [b, l]. -/
theorem lvlMixV_apply (b : Fin 2097152) (l : Fin 16) : lvlMixV (ix2 b l) = IntOp.muli (lvlS l) 19349663#32 := by
  unfold lvlMixV
  rw [stretch_apply]
  show IntOp.muli (broadcastInDim S1x16 ![1] bcast_S16_S1x16_1 (iotaInDim S16 32 0) (ix2 (0 : Fin 1) l))
    (broadcastInDim S1x16 ![] bcast_S_S1x16 (constantI S_ 32 19349663#32) (ix2 (0 : Fin 1) l)) = _
  rw [row_apply, bcast0_apply, lvlIota_apply]
  rfl

/-- (i · p₁) xor (level · p₂) at [b, l]. -/
theorem mixV_apply (i : IVec S2097152x16 32) (b : Fin 2097152) (l : Fin 16) :
    mixV i (ix2 b l) = IntOp.xori (IntOp.muli (i (ix2 b l)) 73856093#32) (IntOp.muli (lvlS l) 19349663#32) := by
  show IntOp.xori (IntOp.muli (i (ix2 b l)) (splatI (constantI S_ 32 73856093#32) (ix2 b l))) (lvlMixV (ix2 b l)) = _
  rw [splatI_apply, lvlMixV_apply]
  rfl

/-- The truncated remainder by jnp's divisor, at an index. -/
theorem remRV_apply (a : IVec S2097152x16 32) (n : IVec S_ 32) (j : S2097152x16.Idx) :
    remRV a n j = IntOp.remsi .host (a j) (remDV n ix0) := by
  show IntOp.remsi .host (a j) (splatI (remDV n) j) = _
  rw [splatI_apply]

/-- jnp's remainder at an index: the scalar remainder of the element by the divisor word. -/
theorem remV_apply (a : IVec S2097152x16 32) (n : IVec S_ 32) (j : S2097152x16.Idx) : remV a n j = remS (a j) (n ix0) := by
  show Scalar.select
    (IntOp.andi
      (IntOp.cmpi .ne (IntOp.cmpi .slt (remRV a n j) (splatI (constantI S_ 32 0#32) j))
        (splatI (cmpi .slt (remDV n) (constantI S_ 32 0#32)) j))
      (IntOp.cmpi .ne (remRV a n j) (splatI (constantI S_ 32 0#32) j)))
    (IntOp.addi (remRV a n j) (splatI (remDV n) j)) (remRV a n j) = _
  rw [remRV_apply, splatI_apply, splatI_apply, splatI_apply]
  rfl

/-- The table row of the vertex i [b, l] at level l. -/
theorem rowV_apply (i : IVec S2097152x16 32) (b : Fin 2097152) (l : Fin 16) : rowV i (ix2 b l) = rowS (i (ix2 b l)) (lvlS l) := by
  have hh : hashV i (ix2 b l)
      = remS (IntOp.xori (IntOp.muli (i (ix2 b l)) 73856093#32) (IntOp.muli (lvlS l) 19349663#32)) 524288#32 := by
    show remV (mixV i) (constantI S_ 32 524288#32) (ix2 b l) = _
    rw [remV_apply, mixV_apply]
    rfl
  show Scalar.select (IntOp.cmpi .slt (hashV i (ix2 b l)) (splatI (constantI S_ 32 0#32) (ix2 b l)))
    (IntOp.addi (hashV i (ix2 b l)) (splatI (constantI S_ 32 524288#32) (ix2 b l))) (hashV i (ix2 b l)) = _
  rw [hh, splatI_apply, splatI_apply]
  rfl

/-- The level's number as a wrapped index, at column l of the row. -/
theorem lvlV_apply (l : Fin 16) : lvlV (ix2 (0 : Fin 1) l) = wrapS 16#32 (lvlS l) := by
  show Scalar.select
    (IntOp.cmpi .slt (broadcastInDim S1x16 ![1] bcast_S16_S1x16_1 (iotaInDim S16 32 0) (ix2 (0 : Fin 1) l))
      (broadcastInDim S1x16 ![] bcast_S_S1x16 (constantI S_ 32 0#32) (ix2 (0 : Fin 1) l)))
    (IntOp.addi (broadcastInDim S1x16 ![1] bcast_S16_S1x16_1 (iotaInDim S16 32 0) (ix2 (0 : Fin 1) l))
      (broadcastInDim S1x16 ![] bcast_S_S1x16 (constantI S_ 32 16#32) (ix2 (0 : Fin 1) l)))
    (broadcastInDim S1x16 ![1] bcast_S16_S1x16_1 (iotaInDim S16 32 0) (ix2 (0 : Fin 1) l)) = _
  rw [row_apply, bcast0_apply, bcast0_apply, lvlIota_apply]
  rfl

end Cert.KernelIdeal.Stages

end
-- ==== Proof.LibGatherPair.lean ====
/-
  GATHER BY A PAIR OF INDICES, READ AT AN INDEX.

  jnp's `table[i, j]` — two integer index arrays `i`, `j` of one common shape `[P, Q]` indexing the two LEADING axes of a
  rank-3 table `[A, H, D]`, the last axis kept whole — lowers to `stablehlo.gather` with offset_dims `[2]`,
  collapsed_slice_dims `[0, 1]`, start_index_map `[0, 1]`, index_vector_dim `2`, slice_sizes `[1, 1, D]`, over start
  indices of shape `[P, Q, 2]` (the pair `(i[p, q], j[p, q])` laid along the last axis). This file proves what that gather
  is at one result index: element `(p, q, f)` of the result is the table at `(i', j', f)`, where `i'` is the start
  index's component 0 read as a SIGNED integer and CLAMPED into `[0, A − 1]`, and `j'` is component 1 clamped into
  `[0, H − 1]` (StableHLO clamps every start index so that the slice stays inside the operand; the slice has size 1 on
  the two collapsed axes, so the clamp's upper end is the axis's last position).

  The dimension numbers enter as hypotheses on the record's fields (each closed by `rfl` at a printed record), so the
  lemma applies to any record of this form whatever its well-formedness proof.
-/
import Idealize.ShloMosaic.Lib.ValueIdx

namespace Idealize.ShloMosaic.GatherPair

open Idealize.ShloMosaic Idealize.ShloMosaic.ValueIdx

/-- THE PAIR GATHER READ AT `(p, q, f)`: the table at the two start-index components, each read signed and clamped into
    its axis, and `f` on the kept axis. -/
theorem gather_pair_apply {α : Type} {A H D P Q w : Nat}
    (d : GatherDims ⟨3, ![A, H, D]⟩ ⟨3, ![P, Q, 2]⟩ ⟨3, ![P, Q, D]⟩)
    (hoff : d.offsetDims = [2]) (hcoll : d.collapsedSliceDims = [0, 1]) (hob : d.operandBatchingDims = [])
    (hsim : d.startIndexMap = [0, 1]) (hivd : d.indexVectorDim = 2) (hss : d.sliceSizes = ![1, 1, D])
    (hA : 0 < A) (hH : 0 < H)
    (x : (⟨3, ![A, H, D]⟩ : Shape).Idx → α) (idx : IVec ⟨3, ![P, Q, 2]⟩ w) (p : Fin P) (q : Fin Q) (f : Fin D) :
    Host.gather d x idx (ix3 p q f)
      = x (ix3 (⟨min (idx (ix3 p q (0 : Fin 2))).toInt.toNat (A - 1), by omega⟩ : Fin A)
               (⟨min (idx (ix3 p q (1 : Fin 2))).toInt.toNat (H - 1), by omega⟩ : Fin H) f) := by
  obtain ⟨od, cd, ob, sb, sm, iv, ss, wf⟩ := d
  simp only at hoff hcoll hob hsim hivd hss
  subst hoff hcoll hob hsim hivd hss
  unfold Host.gather
  congr 1
  funext a
  refine Fin.ext ?_
  -- no operand axis is a batching axis; axes 0 and 1 are collapsed and start-indexed, axis 2 is neither
  have hb : ∀ a : Fin 3, a ∉ ([] : List (Fin 3)) := fun _ => List.not_mem_nil
  have m0 : (0 : Fin 3) ∈ ([0, 1] : List (Fin 3)) := by decide
  have m1 : (1 : Fin 3) ∈ ([0, 1] : List (Fin 3)) := by decide
  have m2 : (2 : Fin 3) ∉ ([0, 1] : List (Fin 3)) := by decide
  -- the start-indices index at which result index (p, q, f) reads component c of its start index is (p, q, c):
  -- the result's batch axes 0 and 1 carry the start indices' axes 0 and 1, the index vector lies along axis 2
  have hsi0 : ∀ hlt, GatherDims.siIdx (⟨[2], [0, 1], [], sb, [0, 1], 2, ![1, 1, D], wf⟩ :
      GatherDims ⟨3, ![A, H, D]⟩ ⟨3, ![P, Q, 2]⟩ ⟨3, ![P, Q, D]⟩) (ix3 p q f)
      ⟨List.idxOf (0 : Fin 3) [0, 1], hlt⟩ = ix3 p q (0 : Fin 2) := by
    intro hlt
    funext b; refine Fin.ext ?_
    match b with
    | ⟨0, _⟩ => rfl
    | ⟨1, _⟩ => rfl
    | ⟨2, _⟩ => rfl
  have hsi1 : ∀ hlt, GatherDims.siIdx (⟨[2], [0, 1], [], sb, [0, 1], 2, ![1, 1, D], wf⟩ :
      GatherDims ⟨3, ![A, H, D]⟩ ⟨3, ![P, Q, 2]⟩ ⟨3, ![P, Q, D]⟩) (ix3 p q f)
      ⟨List.idxOf (1 : Fin 3) [0, 1], hlt⟩ = ix3 p q (1 : Fin 2) := by
    intro hlt
    funext b; refine Fin.ext ?_
    match b with
    | ⟨0, _⟩ => rfl
    | ⟨1, _⟩ => rfl
    | ⟨2, _⟩ => rfl
  match a with
  | ⟨0, _⟩ =>
    -- a collapsed, start-indexed axis: the clamped start alone (slice size 1, so the clamp's upper end is A − 1)
    show GatherDims.start _ _ idx 0 + GatherDims.batchCoord _ _ 0 + GatherDims.offCoord _ _ 0 = _
    rw [GatherDims.batchCoord_eq_zero _ _ _ (hb _),
      GatherDims.offCoord_eq_zero _ _ _ (fun h => ((GatherDims.mem_sKept _ _).mp h).1 m0)]
    simp only [Nat.add_zero]
    unfold GatherDims.start
    rw [dif_pos m0, hsi0]
    rfl
  | ⟨1, _⟩ =>
    show GatherDims.start _ _ idx 1 + GatherDims.batchCoord _ _ 1 + GatherDims.offCoord _ _ 1 = _
    rw [GatherDims.batchCoord_eq_zero _ _ _ (hb _),
      GatherDims.offCoord_eq_zero _ _ _ (fun h => ((GatherDims.mem_sKept _ _).mp h).1 m1)]
    simp only [Nat.add_zero]
    unfold GatherDims.start
    rw [dif_pos m1, hsi1]
    rfl
  | ⟨2, _⟩ =>
    -- the kept axis: no start index (start 0), and the offset coordinate is the result's coordinate on its one offset axis
    show GatherDims.start _ _ idx 2 + GatherDims.batchCoord _ _ 2 + GatherDims.offCoord _ _ 2 = _
    rw [GatherDims.batchCoord_eq_zero _ _ _ (hb _)]
    unfold GatherDims.start
    rw [dif_neg m2]
    simp only [Nat.add_zero, Nat.zero_add]
    rfl

/-! ## A concrete instance

The lemma at a literal record of this form (operand `[3, 5, 4]`, start indices `[2, 7, 2]`, result `[2, 7, 4]`): every
field hypothesis is `rfl` and the two positivity side conditions are decided. -/

private def tiny : GatherDims ⟨3, ![3, 5, 4]⟩ ⟨3, ![2, 7, 2]⟩ ⟨3, ![2, 7, 4]⟩ where
  offsetDims := [2]
  collapsedSliceDims := [0, 1]
  operandBatchingDims := []
  startIndicesBatchingDims := []
  startIndexMap := [0, 1]
  indexVectorDim := 2
  sliceSizes := ![1, 1, 4]
  wf := by decide

example {α : Type} {w : Nat} (x : (⟨3, ![3, 5, 4]⟩ : Shape).Idx → α) (idx : IVec ⟨3, ![2, 7, 2]⟩ w)
    (p : Fin 2) (q : Fin 7) (f : Fin 4) :
    Host.gather tiny x idx (ix3 p q f)
      = x (ix3 (⟨min (idx (ix3 p q (0 : Fin 2))).toInt.toNat (3 - 1), by omega⟩ : Fin 3)
               (⟨min (idx (ix3 p q (1 : Fin 2))).toInt.toNat (5 - 1), by omega⟩ : Fin 5) f) :=
  gather_pair_apply tiny rfl rfl rfl rfl rfl rfl (by decide) (by decide) x idx p q f

end Idealize.ShloMosaic.GatherPair
-- ==== Proof.KerRead3.lean ====
/-
  The kernel program's three window arrays read at an index: the gather's start indices (a concatenation along a last
  axis of extent 2 of the level row and the row array), the gather itself (the table at the clamped pair), and the
  flattening that brings entry [point b, level l, feature f] to [b, 4 l + f].
-/
import proofs.«139522_j19645180412085_1_alg».proof.Proof.KerRead2
import proofs.«139522_j19645180412085_1_alg».proof.Proof.LibGatherPair

noncomputable section

namespace Cert.KernelIdeal.Stages

open Cert.KernelIdeal Cert.KernelIdeal.Gen Cert.Spec Idealize.ShloMosaic Idealize.ShloMosaic.ValueIdx

variable {F : FTy → Type} [FloatOps F]

/-- The trailing unit axis reads through. -/
theorem addUnit_apply {α : Type} (v : S2097152x16.Idx → α) (b : Fin 2097152) (l : Fin 16) :
    addUnit v (ix3 b l (0 : Fin 1)) = v (ix2 b l) :=
  broadcastInDim_apply _ _ v (ix3 b l (0 : Fin 1)) (ix2 b l) fun a => by
    match a with
    | ⟨0, _⟩ => rfl
    | ⟨1, _⟩ => rfl

/-- A [point, level, 1] array laid along the features reads, at feature f, its one entry. -/
theorem alongF_apply {α : Type} (v : S2097152x16x1.Idx → α) (b : Fin 2097152) (l : Fin 16) (f : Fin 4) :
    alongF v (ix3 b l f) = v (ix3 b l (0 : Fin 1)) :=
  broadcastInDim_apply _ _ v (ix3 b l f) (ix3 b l (0 : Fin 1)) fun a => by
    match a with
    | ⟨0, _⟩ => rfl
    | ⟨1, _⟩ => rfl
    | ⟨2, _⟩ => rfl

/-- The level row at every point. -/
theorem lvlRow_apply (b : Fin 2097152) (l : Fin 16) :
    broadcastInDim S2097152x16 ![0, 1] bcast_S1x16_S2097152x16_0_1 lvlV (ix2 b l) = wrapS 16#32 (lvlS l) := by
  refine (broadcastInDim_apply _ _ lvlV (ix2 b l) (ix2 (0 : Fin 1) l) fun a => ?_).trans (lvlV_apply l)
  match a with
  | ⟨0, _⟩ => rfl
  | ⟨1, _⟩ => rfl

/-- The start index's first component is the (wrapped) level. -/
theorem startV_apply0 (i : IVec S2097152x16 32) (b : Fin 2097152) (l : Fin 16) :
    startV i (ix3 b l (0 : Fin 2)) = wrapS 16#32 (lvlS l) := by
  unfold startV
  refine (concatenate_pair_apply_left (t := S2097152x16x2) (s₁ := S2097152x16x1) (s₂ := S2097152x16x1) (2 : Fin 3) _ _ concatenates_S2097152x16x1_S2097152x16x1_S2097152x16x2_d2
    (ix3 b l (0 : Fin 2)) rfl (ix3 b l (0 : Fin 1)) fun a => ?_).trans ?_
  · match a with
    | ⟨0, _⟩ => rfl
    | ⟨1, _⟩ => rfl
    | ⟨2, _⟩ => rfl
  · rw [addUnit_apply]
    exact lvlRow_apply b l

/-- The start index's second component is the row. -/
theorem startV_apply1 (i : IVec S2097152x16 32) (b : Fin 2097152) (l : Fin 16) :
    startV i (ix3 b l (1 : Fin 2)) = rowS (i (ix2 b l)) (lvlS l) := by
  unfold startV
  refine (concatenate_pair_apply_right (t := S2097152x16x2) (s₁ := S2097152x16x1) (s₂ := S2097152x16x1) (2 : Fin 3) _ _ concatenates_S2097152x16x1_S2097152x16x1_S2097152x16x2_d2
    (ix3 b l (1 : Fin 2)) rfl rfl (ix3 b l (0 : Fin 1)) (fun a ha => ?_) rfl).trans ?_
  · match a with
    | ⟨0, _⟩ => rfl
    | ⟨1, _⟩ => rfl
    | ⟨2, _⟩ => exact absurd rfl ha
  · rw [addUnit_apply]
    exact rowV_apply i b l

/-- The embedding of vertex i at [b, l, f] is the table's entry for it. -/
theorem embV_apply (tab : FVec F S16x524288x4 .f32) (i : IVec S2097152x16 32) (b : Fin 2097152) (l : Fin 16) (f : Fin 4) :
    embV tab i (ix3 b l f) = cellS tab (i (ix2 b l)) l f := by
  unfold embV cellS
  rw [GatherPair.gather_pair_apply gather_S16x524288x4_S2097152x16x2_S2097152x16x4_2_01_n_n_01_2_114 rfl rfl rfl rfl rfl rfl
    (by decide) (by decide) tab (startV i) b l f]
  simp only [startV_apply0, startV_apply1]

/-- Entry [b, 4 l + f] of a flattened [point, level, feature] array. -/
theorem flat_apply {α : Type} (v : S2097152x16x4.Idx → α) (b : Fin 2097152) (l : Fin 16) (f : Fin 4) :
    shapeCast S2097152x64 v shapeCasts_S2097152x16x4_S2097152x64 (ix2 b (⟨4 * l.val + f.val, by omega⟩ : Fin 64)) = v (ix3 b l f) := by
  refine shapeCast_apply _ _ (ix2 b (⟨4 * l.val + f.val, by omega⟩ : Fin 64)) (ix3 b l f) ?_
  rw [Shape.rowMajor_val_three, Shape.rowMajor_val_two]
  show (b.val * 16 + l.val) * 4 + f.val = b.val * 64 + (4 * l.val + f.val)
  omega

/-- The first window's array at [b, 4 l + f]: the table's entry for the left vertex. -/
theorem e0V_apply (x : FVec F S2097152 .f32) (tab : FVec F S16x524288x4 .f32) (b : Fin 2097152) (l : Fin 16) (f : Fin 4) :
    e0V x tab (ix2 b (⟨4 * l.val + f.val, by omega⟩ : Fin 64)) = cellS tab (leftS (posS (x (ix1 b)) (resS l))) l f := by
  unfold e0V
  rw [flat_apply, embV_apply, leftV_apply]

/-- The second window's array at [b, 4 l + f]: the table's entry for the right vertex. -/
theorem e1V_apply (x : FVec F S2097152 .f32) (tab : FVec F S16x524288x4 .f32) (b : Fin 2097152) (l : Fin 16) (f : Fin 4) :
    e1V x tab (ix2 b (⟨4 * l.val + f.val, by omega⟩ : Fin 64)) = cellS tab (rightS (posS (x (ix1 b)) (resS l)) (resS l)) l f := by
  unfold e1V
  rw [flat_apply, embV_apply, rightV_apply]

/-- The third window's array at [b, 4 l + f]: the weight of point b at level l. -/
theorem wV_apply (x : FVec F S2097152 .f32) (b : Fin 2097152) (l : Fin 16) (f : Fin 4) :
    wV x (ix2 b (⟨4 * l.val + f.val, by omega⟩ : Fin 64)) = fracS (posS (x (ix1 b)) (resS l)) := by
  unfold wV
  rw [flat_apply, alongF_apply, addUnit_apply, fracV_apply]

end Cert.KernelIdeal.Stages

end
-- ==== Proof.RefOps.lean ====
/- The reference's @main, as printed in proof/ReferenceIdeal.lean, laid out as lists of its host operations: one list per stretch
   between two calls of a module-local function and one per call (the callee's operations over that call's buffers),
   window by window; beside each list, that each operation touches TensorCore references only. Nothing is argued here. -/
import proofs.«139522_j19645180412085_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Window 0 (main_part0), stretch 0: 4 operations of main. -/
abbrev w0_s0 : List (HloOp τ sig (Elt F)) :=
  [ StableHlo.nullary main_c (fun i => lit0 (S16.rowMajor i)),
    StableHlo.nullary main_v0 (iotaInDim S16 32 0),
    StableHlo.nullary main_cst (constant S_ .f32 0x00000000#32),
    StableHlo.nullary main_cst_0 (constant S_ .f32 0x3F800000#32) ]
theorem w0_s0_sub : (w0_s0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub ..⟩

/-- Window 0 (main_part0), stretch 1: 6 operations of fn_clip (main_call0). -/
abbrev w0_s1 : List (HloOp τ sig (Elt F)) :=
  [ StableHlo.TRef.unary (.of main_cst : StableHlo.TRef sig ⟨S_, .f32⟩) main_call0.v0 id,
    StableHlo.TRef.unary main_call0.v0 main_call0.v1 (broadcastInDim S2097152 ![] bcast_S_S2097152),
    StableHlo.TRef.binary main_call0.v1 (.of main_arg0 : StableHlo.TRef sig ⟨S2097152, .f32⟩) main_call0.v2 maximumf,
    StableHlo.TRef.unary (.of main_cst_0 : StableHlo.TRef sig ⟨S_, .f32⟩) main_call0.v3 id,
    StableHlo.TRef.unary main_call0.v3 main_call0.v4 (broadcastInDim S2097152 ![] bcast_S_S2097152),
    StableHlo.TRef.binary main_call0.v4 main_call0.v2 main_call0.v5 minimumf ]
theorem w0_s1_sub : (w0_s1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩

/-- Window 0 (main_part0), stretch 2: 33 operations of main. -/
abbrev w0_s2 : List (HloOp τ sig (Elt F)) :=
  [ StableHlo.unary main_v1 main_v2 (broadcastInDim S1x2097152 ![1] bcast_S2097152_S1x2097152_1 : (⟨S2097152, .f32⟩ : BufTy).Contents (Elt F) → (⟨S1x2097152, .f32⟩ : BufTy).Contents (Elt F)),
    StableHlo.nullary main_c_1 (constantI S_ 32 1#32),
    StableHlo.unary main_c_1 main_v3 (broadcastInDim S16 ![] bcast_S_S16 : (⟨S_, .i32⟩ : BufTy).Contents (Elt F) → (⟨S16, .i32⟩ : BufTy).Contents (Elt F)),
    StableHlo.binary main_c main_v3 main_v4 (subi : (⟨S16, .i32⟩ : BufTy).Contents (Elt F) → (⟨S16, .i32⟩ : BufTy).Contents (Elt F) → (⟨S16, .i32⟩ : BufTy).Contents (Elt F)),
    StableHlo.unary main_v4 main_v5 (sitofp .f32 : (⟨S16, .i32⟩ : BufTy).Contents (Elt F) → (⟨S16, .f32⟩ : BufTy).Contents (Elt F)),
    StableHlo.unary main_v5 main_v6 (broadcastInDim S16x1 ![0] bcast_S16_S16x1_0 : (⟨S16, .f32⟩ : BufTy).Contents (Elt F) → (⟨S16x1, .f32⟩ : BufTy).Contents (Elt F)),
    StableHlo.unary main_v2 main_v7 (broadcastInDim S16x2097152 ![0, 1] bcast_S1x2097152_S16x2097152_0_1 : (⟨S1x2097152, .f32⟩ : BufTy).Contents (Elt F) → (⟨S16x2097152, .f32⟩ : BufTy).Contents (Elt F)),
    StableHlo.unary main_v6 main_v8 (broadcastInDim S16x2097152 ![0, 1] bcast_S16x1_S16x2097152_0_1 : (⟨S16x1, .f32⟩ : BufTy).Contents (Elt F) → (⟨S16x2097152, .f32⟩ : BufTy).Contents (Elt F)),
    StableHlo.binary main_v7 main_v8 main_v9 (mulf : (⟨S16x2097152, .f32⟩ : BufTy).Contents (Elt F) → (⟨S16x2097152, .f32⟩ : BufTy).Contents (Elt F) → (⟨S16x2097152, .f32⟩ : BufTy).Contents (Elt F)),
    StableHlo.unary main_v9 main_v10 (Host.floor : (⟨S16x2097152, .f32⟩ : BufTy).Contents (Elt F) → (⟨S16x2097152, .f32⟩ : BufTy).Contents (Elt F)),
    StableHlo.unary main_v10 main_v11 (fptosi 32 : (⟨S16x2097152, .f32⟩ : BufTy).Contents (Elt F) → (⟨S16x2097152, .i32⟩ : BufTy).Contents (Elt F)),
    StableHlo.nullary main_c_2 (constantI S_ 32 1#32),
    StableHlo.unary main_c_2 main_v12 (broadcastInDim S16x2097152 ![] bcast_S_S16x2097152 : (⟨S_, .i32⟩ : BufTy).Contents (Elt F) → (⟨S16x2097152, .i32⟩ : BufTy).Contents (Elt F)),
    StableHlo.binary main_v11 main_v12 main_v13 (addi : (⟨S16x2097152, .i32⟩ : BufTy).Contents (Elt F) → (⟨S16x2097152, .i32⟩ : BufTy).Contents (Elt F) → (⟨S16x2097152, .i32⟩ : BufTy).Contents (Elt F)),
    StableHlo.nullary main_c_3 (constantI S_ 32 1#32),
    StableHlo.unary main_c_3 main_v14 (broadcastInDim S16 ![] bcast_S_S16 : (⟨S_, .i32⟩ : BufTy).Contents (Elt F) → (⟨S16, .i32⟩ : BufTy).Contents (Elt F)),
    StableHlo.binary main_c main_v14 main_v15 (subi : (⟨S16, .i32⟩ : BufTy).Contents (Elt F) → (⟨S16, .i32⟩ : BufTy).Contents (Elt F) → (⟨S16, .i32⟩ : BufTy).Contents (Elt F)),
    StableHlo.unary main_v15 main_v16 (broadcastInDim S16x1 ![0] bcast_S16_S16x1_0 : (⟨S16, .i32⟩ : BufTy).Contents (Elt F) → (⟨S16x1, .i32⟩ : BufTy).Contents (Elt F)),
    StableHlo.unary main_v16 main_v17 (broadcastInDim S16x2097152 ![0, 1] bcast_S16x1_S16x2097152_0_1 : (⟨S16x1, .i32⟩ : BufTy).Contents (Elt F) → (⟨S16x2097152, .i32⟩ : BufTy).Contents (Elt F)),
    StableHlo.binary main_v13 main_v17 main_v18 (minsi : (⟨S16x2097152, .i32⟩ : BufTy).Contents (Elt F) → (⟨S16x2097152, .i32⟩ : BufTy).Contents (Elt F) → (⟨S16x2097152, .i32⟩ : BufTy).Contents (Elt F)),
    StableHlo.unary main_v11 main_v19 (sitofp .f32 : (⟨S16x2097152, .i32⟩ : BufTy).Contents (Elt F) → (⟨S16x2097152, .f32⟩ : BufTy).Contents (Elt F)),
    StableHlo.binary main_v9 main_v19 main_v20 (subf : (⟨S16x2097152, .f32⟩ : BufTy).Contents (Elt F) → (⟨S16x2097152, .f32⟩ : BufTy).Contents (Elt F) → (⟨S16x2097152, .f32⟩ : BufTy).Contents (Elt F)),
    StableHlo.unary main_v20 main_v21 (broadcastInDim S16x2097152x1 ![0, 1] bcast_S16x2097152_S16x2097152x1_0_1 : (⟨S16x2097152, .f32⟩ : BufTy).Contents (Elt F) → (⟨S16x2097152x1, .f32⟩ : BufTy).Contents (Elt F)),
    StableHlo.nullary main_c_4 (constantI S_ 32 73856093#32),
    StableHlo.unary main_c_4 main_v22 (broadcastInDim S16x2097152 ![] bcast_S_S16x2097152 : (⟨S_, .i32⟩ : BufTy).Contents (Elt F) → (⟨S16x2097152, .i32⟩ : BufTy).Contents (Elt F)),
    StableHlo.binary main_v11 main_v22 main_v23 (muli : (⟨S16x2097152, .i32⟩ : BufTy).Contents (Elt F) → (⟨S16x2097152, .i32⟩ : BufTy).Contents (Elt F) → (⟨S16x2097152, .i32⟩ : BufTy).Contents (Elt F)),
    StableHlo.unary main_v0 main_v24 (broadcastInDim S16x1 ![0] bcast_S16_S16x1_0 : (⟨S16, .i32⟩ : BufTy).Contents (Elt F) → (⟨S16x1, .i32⟩ : BufTy).Contents (Elt F)),
    StableHlo.nullary main_c_5 (constantI S_ 32 19349663#32),
    StableHlo.unary main_c_5 main_v25 (broadcastInDim S16x1 ![] bcast_S_S16x1 : (⟨S_, .i32⟩ : BufTy).Contents (Elt F) → (⟨S16x1, .i32⟩ : BufTy).Contents (Elt F)),
    StableHlo.binary main_v24 main_v25 main_v26 (muli : (⟨S16x1, .i32⟩ : BufTy).Contents (Elt F) → (⟨S16x1, .i32⟩ : BufTy).Contents (Elt F) → (⟨S16x1, .i32⟩ : BufTy).Contents (Elt F)),
    StableHlo.unary main_v26 main_v27 (broadcastInDim S16x2097152 ![0, 1] bcast_S16x1_S16x2097152_0_1 : (⟨S16x1, .i32⟩ : BufTy).Contents (Elt F) → (⟨S16x2097152, .i32⟩ : BufTy).Contents (Elt F)),
    StableHlo.binary main_v23 main_v27 main_v28 (xori : (⟨S16x2097152, .i32⟩ : BufTy).Contents (Elt F) → (⟨S16x2097152, .i32⟩ : BufTy).Contents (Elt F) → (⟨S16x2097152, .i32⟩ : BufTy).Contents (Elt F)),
    StableHlo.nullary main_c_6 (constantI S_ 32 524288#32) ]
theorem w0_s2_sub : (w0_s2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub ..⟩

/-- Window 0 (main_part0), stretch 3: 21 operations of fn_remainder (main_call1). -/
abbrev w0_s3 : List (HloOp τ sig (Elt F)) :=
  [ StableHlo.TRef.unary (.of main_c_6 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary (main_call1.v1 : StableHlo.TRef sig ⟨S_, .i1⟩) (main_call1.c_0 : StableHlo.TRef sig ⟨S_, .i32⟩) (main_call1.v0 : StableHlo.TRef sig ⟨S_, .i32⟩) main_call1.call0.v0 select,
    StableHlo.TRef.unary main_call1.call0.v0 main_call1.v3 (broadcastInDim S16x2097152 ![] bcast_S_S16x2097152),
    StableHlo.TRef.binary (.of main_v28 : StableHlo.TRef sig ⟨S16x2097152, .i32⟩) main_call1.v3 main_call1.v4 Host.remsi,
    StableHlo.TRef.nullary main_call1.c_1 (constantI S_ 32 0#32),
    StableHlo.TRef.unary main_call1.c_1 main_call1.v5 (broadcastInDim S16x2097152 ![] bcast_S_S16x2097152),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S16x2097152 ![] bcast_S_S16x2097152),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S16x2097152 ![] bcast_S_S16x2097152),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S16x2097152 ![] bcast_S_S16x2097152),
    StableHlo.TRef.binary main_call1.v4 main_call1.v13 main_call1.v14 addi,
    StableHlo.TRef.ternary main_call1.v12 main_call1.v14 main_call1.v4 main_call1.v15 select ]
theorem w0_s3_sub : (w0_s3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- Window 0 (main_part0), stretch 4: 10 operations of main. -/
abbrev w0_s4 : List (HloOp τ sig (Elt F)) :=
  [ StableHlo.nullary main_c_7 (constantI S_ 32 73856093#32),
    StableHlo.unary main_c_7 main_v30 (broadcastInDim S16x2097152 ![] bcast_S_S16x2097152 : (⟨S_, .i32⟩ : BufTy).Contents (Elt F) → (⟨S16x2097152, .i32⟩ : BufTy).Contents (Elt F)),
    StableHlo.binary main_v18 main_v30 main_v31 (muli : (⟨S16x2097152, .i32⟩ : BufTy).Contents (Elt F) → (⟨S16x2097152, .i32⟩ : BufTy).Contents (Elt F) → (⟨S16x2097152, .i32⟩ : BufTy).Contents (Elt F)),
    StableHlo.unary main_v0 main_v32 (broadcastInDim S16x1 ![0] bcast_S16_S16x1_0 : (⟨S16, .i32⟩ : BufTy).Contents (Elt F) → (⟨S16x1, .i32⟩ : BufTy).Contents (Elt F)),
    StableHlo.nullary main_c_8 (constantI S_ 32 19349663#32),
    StableHlo.unary main_c_8 main_v33 (broadcastInDim S16x1 ![] bcast_S_S16x1 : (⟨S_, .i32⟩ : BufTy).Contents (Elt F) → (⟨S16x1, .i32⟩ : BufTy).Contents (Elt F)),
    StableHlo.binary main_v32 main_v33 main_v34 (muli : (⟨S16x1, .i32⟩ : BufTy).Contents (Elt F) → (⟨S16x1, .i32⟩ : BufTy).Contents (Elt F) → (⟨S16x1, .i32⟩ : BufTy).Contents (Elt F)),
    StableHlo.unary main_v34 main_v35 (broadcastInDim S16x2097152 ![0, 1] bcast_S16x1_S16x2097152_0_1 : (⟨S16x1, .i32⟩ : BufTy).Contents (Elt F) → (⟨S16x2097152, .i32⟩ : BufTy).Contents (Elt F)),
    StableHlo.binary main_v31 main_v35 main_v36 (xori : (⟨S16x2097152, .i32⟩ : BufTy).Contents (Elt F) → (⟨S16x2097152, .i32⟩ : BufTy).Contents (Elt F) → (⟨S16x2097152, .i32⟩ : BufTy).Contents (Elt F)),
    StableHlo.nullary main_c_9 (constantI S_ 32 524288#32) ]
theorem w0_s4_sub : (w0_s4 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub ..⟩

/-- Window 0 (main_part0), stretch 5: 21 operations of fn_remainder (main_call2). -/
abbrev w0_s5 : List (HloOp τ sig (Elt F)) :=
  [ StableHlo.TRef.unary (.of main_c_9 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary (main_call2.v1 : StableHlo.TRef sig ⟨S_, .i1⟩) (main_call2.c_0 : StableHlo.TRef sig ⟨S_, .i32⟩) (main_call2.v0 : StableHlo.TRef sig ⟨S_, .i32⟩) main_call2.call0.v0 select,
    StableHlo.TRef.unary main_call2.call0.v0 main_call2.v3 (broadcastInDim S16x2097152 ![] bcast_S_S16x2097152),
    StableHlo.TRef.binary (.of main_v36 : StableHlo.TRef sig ⟨S16x2097152, .i32⟩) main_call2.v3 main_call2.v4 Host.remsi,
    StableHlo.TRef.nullary main_call2.c_1 (constantI S_ 32 0#32),
    StableHlo.TRef.unary main_call2.c_1 main_call2.v5 (broadcastInDim S16x2097152 ![] bcast_S_S16x2097152),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S16x2097152 ![] bcast_S_S16x2097152),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S16x2097152 ![] bcast_S_S16x2097152),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S16x2097152 ![] bcast_S_S16x2097152),
    StableHlo.TRef.binary main_call2.v4 main_call2.v13 main_call2.v14 addi,
    StableHlo.TRef.ternary main_call2.v12 main_call2.v14 main_call2.v4 main_call2.v15 select ]
theorem w0_s5_sub : (w0_s5 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- Window 0 (main_part0), stretch 6: 10 operations of main. -/
abbrev w0_s6 : List (HloOp τ sig (Elt F)) :=
  [ StableHlo.unary main_v0 main_v38 (broadcastInDim S16x1 ![0] bcast_S16_S16x1_0 : (⟨S16, .i32⟩ : BufTy).Contents (Elt F) → (⟨S16x1, .i32⟩ : BufTy).Contents (Elt F)),
    StableHlo.nullary main_c_10 (constantI S_ 32 0#32),
    StableHlo.unary main_c_10 main_v39 (broadcastInDim S16x1 ![] bcast_S_S16x1 : (⟨S_, .i32⟩ : BufTy).Contents (Elt F) → (⟨S16x1, .i32⟩ : BufTy).Contents (Elt F)),
    StableHlo.binary main_v38 main_v39 main_v40 (cmpi .slt : (⟨S16x1, .i32⟩ : BufTy).Contents (Elt F) → (⟨S16x1, .i32⟩ : BufTy).Contents (Elt F) → (⟨S16x1, .i1⟩ : BufTy).Contents (Elt F)),
    StableHlo.nullary main_c_11 (constantI S_ 32 16#32),
    StableHlo.unary main_c_11 main_v41 (broadcastInDim S16x1 ![] bcast_S_S16x1 : (⟨S_, .i32⟩ : BufTy).Contents (Elt F) → (⟨S16x1, .i32⟩ : BufTy).Contents (Elt F)),
    StableHlo.binary main_v38 main_v41 main_v42 (addi : (⟨S16x1, .i32⟩ : BufTy).Contents (Elt F) → (⟨S16x1, .i32⟩ : BufTy).Contents (Elt F) → (⟨S16x1, .i32⟩ : BufTy).Contents (Elt F)),
    StableHlo.ternary main_v40 main_v42 main_v38 main_v43 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_12 (constantI S_ 32 0#32),
    StableHlo.unary main_c_12 main_v44 (broadcastInDim S16x2097152 ![] bcast_S_S16x2097152 : (⟨S_, .i32⟩ : BufTy).Contents (Elt F) → (⟨S16x2097152, .i32⟩ : BufTy).Contents (Elt F)) ]
theorem w0_s6_sub : (w0_s6 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub ..⟩

/-- Window 1 (main_part1), stretch 0: 39 operations of main. -/
abbrev w1_s0 : List (HloOp τ sig (Elt F)) :=
  [ StableHlo.binary main_v29 main_v44 main_v45 (cmpi .slt : (⟨S16x2097152, .i32⟩ : BufTy).Contents (Elt F) → (⟨S16x2097152, .i32⟩ : BufTy).Contents (Elt F) → (⟨S16x2097152, .i1⟩ : BufTy).Contents (Elt F)),
    StableHlo.nullary main_c_13 (constantI S_ 32 524288#32),
    StableHlo.unary main_c_13 main_v46 (broadcastInDim S16x2097152 ![] bcast_S_S16x2097152 : (⟨S_, .i32⟩ : BufTy).Contents (Elt F) → (⟨S16x2097152, .i32⟩ : BufTy).Contents (Elt F)),
    StableHlo.binary main_v29 main_v46 main_v47 (addi : (⟨S16x2097152, .i32⟩ : BufTy).Contents (Elt F) → (⟨S16x2097152, .i32⟩ : BufTy).Contents (Elt F) → (⟨S16x2097152, .i32⟩ : BufTy).Contents (Elt F)),
    StableHlo.ternary main_v45 main_v47 main_v29 main_v48 (select : (⟨S16x2097152, .i1⟩ : BufTy).Contents (Elt F) → (⟨S16x2097152, .i32⟩ : BufTy).Contents (Elt F) → (⟨S16x2097152, .i32⟩ : BufTy).Contents (Elt F) → (⟨S16x2097152, .i32⟩ : BufTy).Contents (Elt F)),
    StableHlo.unary main_v43 main_v49 (broadcastInDim S16x2097152 ![0, 1] bcast_S16x1_S16x2097152_0_1 : (⟨S16x1, .i32⟩ : BufTy).Contents (Elt F) → (⟨S16x2097152, .i32⟩ : BufTy).Contents (Elt F)),
    StableHlo.unary main_v49 main_v50 (broadcastInDim S16x2097152x1 ![0, 1] bcast_S16x2097152_S16x2097152x1_0_1 : (⟨S16x2097152, .i32⟩ : BufTy).Contents (Elt F) → (⟨S16x2097152x1, .i32⟩ : BufTy).Contents (Elt F)),
    StableHlo.unary main_v48 main_v51 (broadcastInDim S16x2097152x1 ![0, 1] bcast_S16x2097152_S16x2097152x1_0_1 : (⟨S16x2097152, .i32⟩ : BufTy).Contents (Elt F) → (⟨S16x2097152x1, .i32⟩ : BufTy).Contents (Elt F)),
    StableHlo.binary main_v50 main_v51 main_v52 ((fun a b => concatenate S16x2097152x2 2 [⟨S16x2097152x1, a⟩, ⟨S16x2097152x1, b⟩] concatenates_S16x2097152x1_S16x2097152x1_S16x2097152x2_d2) : (⟨S16x2097152x1, .i32⟩ : BufTy).Contents (Elt F) → (⟨S16x2097152x1, .i32⟩ : BufTy).Contents (Elt F) → (⟨S16x2097152x2, .i32⟩ : BufTy).Contents (Elt F)),
    StableHlo.binary main_arg1 main_v52 main_v53 ((fun x i => Host.gather gather_S16x524288x4_S16x2097152x2_S16x2097152x4_2_01_n_n_01_2_114 x i) : (⟨S16x524288x4, .f32⟩ : BufTy).Contents (Elt F) → (⟨S16x2097152x2, .i32⟩ : BufTy).Contents (Elt F) → (⟨S16x2097152x4, .f32⟩ : BufTy).Contents (Elt F)),
    StableHlo.nullary main_c_14 (constantI S_ 32 0#32),
    StableHlo.unary main_c_14 main_v54 (broadcastInDim S16x1 ![] bcast_S_S16x1 : (⟨S_, .i32⟩ : BufTy).Contents (Elt F) → (⟨S16x1, .i32⟩ : BufTy).Contents (Elt F)),
    StableHlo.binary main_v38 main_v54 main_v55 (cmpi .slt : (⟨S16x1, .i32⟩ : BufTy).Contents (Elt F) → (⟨S16x1, .i32⟩ : BufTy).Contents (Elt F) → (⟨S16x1, .i1⟩ : BufTy).Contents (Elt F)),
    StableHlo.nullary main_c_15 (constantI S_ 32 16#32),
    StableHlo.unary main_c_15 main_v56 (broadcastInDim S16x1 ![] bcast_S_S16x1 : (⟨S_, .i32⟩ : BufTy).Contents (Elt F) → (⟨S16x1, .i32⟩ : BufTy).Contents (Elt F)),
    StableHlo.binary main_v38 main_v56 main_v57 (addi : (⟨S16x1, .i32⟩ : BufTy).Contents (Elt F) → (⟨S16x1, .i32⟩ : BufTy).Contents (Elt F) → (⟨S16x1, .i32⟩ : BufTy).Contents (Elt F)),
    StableHlo.ternary main_v55 main_v57 main_v38 main_v58 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_16 (constantI S_ 32 0#32),
    StableHlo.unary main_c_16 main_v59 (broadcastInDim S16x2097152 ![] bcast_S_S16x2097152 : (⟨S_, .i32⟩ : BufTy).Contents (Elt F) → (⟨S16x2097152, .i32⟩ : BufTy).Contents (Elt F)),
    StableHlo.binary main_v37 main_v59 main_v60 (cmpi .slt : (⟨S16x2097152, .i32⟩ : BufTy).Contents (Elt F) → (⟨S16x2097152, .i32⟩ : BufTy).Contents (Elt F) → (⟨S16x2097152, .i1⟩ : BufTy).Contents (Elt F)),
    StableHlo.nullary main_c_17 (constantI S_ 32 524288#32),
    StableHlo.unary main_c_17 main_v61 (broadcastInDim S16x2097152 ![] bcast_S_S16x2097152 : (⟨S_, .i32⟩ : BufTy).Contents (Elt F) → (⟨S16x2097152, .i32⟩ : BufTy).Contents (Elt F)),
    StableHlo.binary main_v37 main_v61 main_v62 (addi : (⟨S16x2097152, .i32⟩ : BufTy).Contents (Elt F) → (⟨S16x2097152, .i32⟩ : BufTy).Contents (Elt F) → (⟨S16x2097152, .i32⟩ : BufTy).Contents (Elt F)),
    StableHlo.ternary main_v60 main_v62 main_v37 main_v63 (select : (⟨S16x2097152, .i1⟩ : BufTy).Contents (Elt F) → (⟨S16x2097152, .i32⟩ : BufTy).Contents (Elt F) → (⟨S16x2097152, .i32⟩ : BufTy).Contents (Elt F) → (⟨S16x2097152, .i32⟩ : BufTy).Contents (Elt F)),
    StableHlo.unary main_v58 main_v64 (broadcastInDim S16x2097152 ![0, 1] bcast_S16x1_S16x2097152_0_1 : (⟨S16x1, .i32⟩ : BufTy).Contents (Elt F) → (⟨S16x2097152, .i32⟩ : BufTy).Contents (Elt F)),
    StableHlo.unary main_v64 main_v65 (broadcastInDim S16x2097152x1 ![0, 1] bcast_S16x2097152_S16x2097152x1_0_1 : (⟨S16x2097152, .i32⟩ : BufTy).Contents (Elt F) → (⟨S16x2097152x1, .i32⟩ : BufTy).Contents (Elt F)),
    StableHlo.unary main_v63 main_v66 (broadcastInDim S16x2097152x1 ![0, 1] bcast_S16x2097152_S16x2097152x1_0_1 : (⟨S16x2097152, .i32⟩ : BufTy).Contents (Elt F) → (⟨S16x2097152x1, .i32⟩ : BufTy).Contents (Elt F)),
    StableHlo.binary main_v65 main_v66 main_v67 ((fun a b => concatenate S16x2097152x2 2 [⟨S16x2097152x1, a⟩, ⟨S16x2097152x1, b⟩] concatenates_S16x2097152x1_S16x2097152x1_S16x2097152x2_d2) : (⟨S16x2097152x1, .i32⟩ : BufTy).Contents (Elt F) → (⟨S16x2097152x1, .i32⟩ : BufTy).Contents (Elt F) → (⟨S16x2097152x2, .i32⟩ : BufTy).Contents (Elt F)),
    StableHlo.binary main_arg1 main_v67 main_v68 ((fun x i => Host.gather gather_S16x524288x4_S16x2097152x2_S16x2097152x4_2_01_n_n_01_2_114 x i) : (⟨S16x524288x4, .f32⟩ : BufTy).Contents (Elt F) → (⟨S16x2097152x2, .i32⟩ : BufTy).Contents (Elt F) → (⟨S16x2097152x4, .f32⟩ : BufTy).Contents (Elt F)),
    StableHlo.nullary main_cst_18 (constant S_ .f32 0x3F800000#32),
    StableHlo.unary main_cst_18 main_v69 (broadcastInDim S16x2097152x1 ![] bcast_S_S16x2097152x1 : (⟨S_, .f32⟩ : BufTy).Contents (Elt F) → (⟨S16x2097152x1, .f32⟩ : BufTy).Contents (Elt F)),
    StableHlo.binary main_v69 main_v21 main_v70 (subf : (⟨S16x2097152x1, .f32⟩ : BufTy).Contents (Elt F) → (⟨S16x2097152x1, .f32⟩ : BufTy).Contents (Elt F) → (⟨S16x2097152x1, .f32⟩ : BufTy).Contents (Elt F)),
    StableHlo.unary main_v70 main_v71 (broadcastInDim S16x2097152x4 ![0, 1, 2] bcast_S16x2097152x1_S16x2097152x4_0_1_2 : (⟨S16x2097152x1, .f32⟩ : BufTy).Contents (Elt F) → (⟨S16x2097152x4, .f32⟩ : BufTy).Contents (Elt F)),
    StableHlo.binary main_v53 main_v71 main_v72 (mulf : (⟨S16x2097152x4, .f32⟩ : BufTy).Contents (Elt F) → (⟨S16x2097152x4, .f32⟩ : BufTy).Contents (Elt F) → (⟨S16x2097152x4, .f32⟩ : BufTy).Contents (Elt F)),
    StableHlo.unary main_v21 main_v73 (broadcastInDim S16x2097152x4 ![0, 1, 2] bcast_S16x2097152x1_S16x2097152x4_0_1_2 : (⟨S16x2097152x1, .f32⟩ : BufTy).Contents (Elt F) → (⟨S16x2097152x4, .f32⟩ : BufTy).Contents (Elt F)),
    StableHlo.binary main_v68 main_v73 main_v74 (mulf : (⟨S16x2097152x4, .f32⟩ : BufTy).Contents (Elt F) → (⟨S16x2097152x4, .f32⟩ : BufTy).Contents (Elt F) → (⟨S16x2097152x4, .f32⟩ : BufTy).Contents (Elt F)),
    StableHlo.binary main_v72 main_v74 main_v75 (addf : (⟨S16x2097152x4, .f32⟩ : BufTy).Contents (Elt F) → (⟨S16x2097152x4, .f32⟩ : BufTy).Contents (Elt F) → (⟨S16x2097152x4, .f32⟩ : BufTy).Contents (Elt F)),
    StableHlo.unary main_v75 main_v76 ((transpose S2097152x16x4 [1, 0, 2] · transposes_S16x2097152x4_S2097152x16x4_1_0_2) : (⟨S16x2097152x4, .f32⟩ : BufTy).Contents (Elt F) → (⟨S2097152x16x4, .f32⟩ : BufTy).Contents (Elt F)),
    StableHlo.reshape main_v76 main_v77 rfl shapeCasts_S2097152x16x4_S2097152x64 ]
theorem w1_s0_sub : (w1_s0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub ..⟩

end Cert.ReferenceIdeal.Hand

end
-- ==== Proof.RefRun.lean ====
/-
  The reference's run. Its @main is a straight line of host operations once the three module-local functions it calls
  (the clip of x to [0, 1], and twice jnp's remainder by the table length, which itself calls a scalar select) are
  unfolded at their calls: the line is the concatenation of the stretches listed beside this module, in order. So
  every weakly fair execution terminates, and each TensorCore buffer ends at the fold of the operations' results
  over what the device held at launch.
-/
import proofs.«139522_j19645180412085_1_alg».proof.Proof.RefOps
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- The whole line: the eight stretches one after the other. -/
abbrev ops : List (HloOp τ sig (Elt F)) :=
  w0_s0 ++ (w0_s1 ++ (w0_s2 ++ (w0_s3 ++ (w0_s4 ++ (w0_s5 ++ (w0_s6 ++ (w1_s0 ++ [])))))))

/-- The first window of @main is its seven stretches in order, the calls unfolded. -/
theorem part0_chain (c : Dev nD) : main_part0 (F := F) c = (Pipeline.chainK
    [ seq w0_s0, seq w0_s1, seq w0_s2, seq w0_s3, seq w0_s4, seq w0_s5 ]
    (seq w0_s6) : Prog (TpuEff nD τ sig (Elt F) (Pipeline.Sig Λ₀ (Fin 0) fun p => (pcfgs (F := F) p).Adm) .tc) PUnit) := by
  chain_rfl

/-- The second window is one stretch. -/
theorem part1_chain (c : Dev nD) : main_part1 (F := F) c = (Pipeline.chain
    [ seq w1_s0 ] : Prog (TpuEff nD τ sig (Elt F) (Pipeline.Sig Λ₀ (Fin 0) fun p => (pcfgs (F := F) p).Adm) .tc) PUnit) := by
  chain_rfl

/-- @main is the line. -/
theorem main_eq (c : Dev nD) : main (F := F) c = seq ops := by
  show (main_part0 (F := F) c >>= fun _ => main_part1 (F := F) c) = _
  rw [part1_chain, part0_chain, Pipeline.chainK_bind_chain]
  simp only [ops, seq_append, List.cons_append, List.nil_append, Pipeline.chain_cons, Pipeline.chain_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append, List.not_mem_nil, or_false] at h
    rcases h with h | h | h | h | h | h | h | h
    exacts [List.forall_iff_forall_mem.mp w0_s0_sub op h, List.forall_iff_forall_mem.mp w0_s1_sub op h,
      List.forall_iff_forall_mem.mp w0_s2_sub op h, List.forall_iff_forall_mem.mp w0_s3_sub op h,
      List.forall_iff_forall_mem.mp w0_s4_sub op h, List.forall_iff_forall_mem.mp w0_s5_sub op h,
      List.forall_iff_forall_mem.mp w0_s6_sub op h, List.forall_iff_forall_mem.mp w1_s0_sub op h]

/-- No operation of the line allocates: each determines its results. -/
theorem ops_fresh : ∀ op ∈ (ops : List (HloOp τ sig (Elt F))), op.fresh = ∅ := by
  intro op h
  simp only [ops, List.mem_append, List.not_mem_nil, or_false] at h
  rcases h with h | h | h | h | h | h | h | h <;>
    (repeat (cases h with | head => rfl | tail _ h => ?_)) <;> exact nomatch h

/-- Every weakly fair execution of the reference terminates, and each TensorCore buffer of each device ends at the
    fold of the line's operations over the device's contents at launch. -/
theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Hand

end
-- ==== Proof.RefStages.lean ====
/-
  The reference's result as a composition of named stages, each a whole-array function of the two inputs
  x : f32[2097152] and tab : f32[16, 524288, 4], laid out [level, point]:

    pos x    [l, b] = clip(x b) · float(res l − 1)          the position along level l
    left x   = int(floor (pos x)),   right x = min(left x + 1, res − 1),   frac x = pos x − float(left x)
    row i    [l, b] = the table row of vertex i [l, b] at level l (multiply, xor, jnp's remainder by 2¹⁹, the wrap)
    emb tab i [l, b, f] = tab at (level l, row i [l, b], f)   (a gather at the pairs (level, row))
    out x tab [b, 4 l + f] = emb tab (left x) · (1 − frac x) + emb tab (right x) · frac x    (transposed, then flattened)

  and: the fold of the reference's operations over a device's contents, at its result buffer, is 'outV' of the two
  argument arrays, while the argument arrays keep their contents.
-/
import proofs.«139522_j19645180412085_1_alg».proof.Proof.RefRun

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- The levels' resolutions, as 32-bit words. -/
def resV : IVec S16 32 := fun i => lit0 (S16.rowMajor i)

/-- res − 1, level by level. -/
def resM1V : IVec S16 32 := subi resV (broadcastInDim S16 ![] bcast_S_S16 (constantI S_ 32 1#32))

/-- A scalar word at every [level, point]. -/
abbrev splatI {w : Nat} (v : IVec S_ w) : IVec S16x2097152 w := broadcastInDim S16x2097152 ![] bcast_S_S16x2097152 v

/-- A per-level vector at every [level, point]. -/
abbrev perLevel {α : Type} (v : S16.Idx → α) : S16x2097152.Idx → α :=
  broadcastInDim S16x2097152 ![0, 1] bcast_S16x1_S16x2097152_0_1 (broadcastInDim S16x1 ![0] bcast_S16_S16x1_0 v)

/-- clip(x, 0, 1), point by point. -/
def clipV (x : FVec F S2097152 .f32) : FVec F S2097152 .f32 :=
  minimumf (broadcastInDim S2097152 ![] bcast_S_S2097152 (id (constant S_ .f32 0x3F800000#32)))
    (maximumf (broadcastInDim S2097152 ![] bcast_S_S2097152 (id (constant S_ .f32 0x00000000#32))) x)

/-- The position of every point along every level. -/
def posV (x : FVec F S2097152 .f32) : FVec F S16x2097152 .f32 :=
  mulf (broadcastInDim S16x2097152 ![0, 1] bcast_S1x2097152_S16x2097152_0_1 (broadcastInDim S1x2097152 ![1] bcast_S2097152_S1x2097152_1 (clipV x)))
    (perLevel (sitofp .f32 resM1V))

/-- The left vertex. -/
def leftV (x : FVec F S2097152 .f32) : IVec S16x2097152 32 := fptosi 32 (Host.floor (posV x))

/-- The right vertex. -/
def rightV (x : FVec F S2097152 .f32) : IVec S16x2097152 32 :=
  minsi (addi (leftV x) (splatI (constantI S_ 32 1#32))) (perLevel resM1V)

/-- The interpolation weight. -/
def fracV (x : FVec F S2097152 .f32) : FVec F S16x2097152 .f32 := subf (posV x) (sitofp .f32 (leftV x))

/-- level · p₂ at every [level, point]. -/
def lvlMixV : IVec S16x2097152 32 :=
  broadcastInDim S16x2097152 ![0, 1] bcast_S16x1_S16x2097152_0_1
    (muli (broadcastInDim S16x1 ![0] bcast_S16_S16x1_0 (iotaInDim S16 32 0)) (broadcastInDim S16x1 ![] bcast_S_S16x1 (constantI S_ 32 19349663#32)))

/-- (i · p₁) xor (level · p₂). -/
def mixV (i : IVec S16x2097152 32) : IVec S16x2097152 32 := xori (muli i (splatI (constantI S_ 32 73856093#32))) lvlMixV

/-- jnp's remainder, its divisor: n, or 1 where n is 0 (on the rank-0 word). -/
def remDV (n : IVec S_ 32) : IVec S_ 32 := select (cmpi .eq (id n) (constantI S_ 32 0#32)) (constantI S_ 32 1#32) (id n)

/-- jnp's remainder, the truncated remainder by that divisor. -/
def remRV (a : IVec S16x2097152 32) (n : IVec S_ 32) : IVec S16x2097152 32 := Host.remsi a (splatI (remDV n))

/-- jnp's remainder: the truncated remainder, moved by the divisor where it is not 0 and its sign is not the divisor's. -/
def remV (a : IVec S16x2097152 32) (n : IVec S_ 32) : IVec S16x2097152 32 :=
  select
    (andi (cmpi .ne (cmpi .slt (remRV a n) (splatI (constantI S_ 32 0#32))) (splatI (cmpi .slt (remDV n) (constantI S_ 32 0#32))))
      (cmpi .ne (remRV a n) (splatI (constantI S_ 32 0#32))))
    (addi (remRV a n) (splatI (remDV n))) (remRV a n)

/-- The hash before the wrap: the remainder of the mix by the table length. -/
def hashV (i : IVec S16x2097152 32) : IVec S16x2097152 32 := remV (mixV i) (constantI S_ 32 524288#32)

/-- The table row: the hash, wrapped as a negative index would be. -/
def rowV (i : IVec S16x2097152 32) : IVec S16x2097152 32 :=
  select (cmpi .slt (hashV i) (splatI (constantI S_ 32 0#32))) (addi (hashV i) (splatI (constantI S_ 32 524288#32))) (hashV i)

/-- The level's number as a column, wrapped as a negative index would be. -/
def lvlV : IVec S16x1 32 :=
  select (cmpi .slt (broadcastInDim S16x1 ![0] bcast_S16_S16x1_0 (iotaInDim S16 32 0)) (broadcastInDim S16x1 ![] bcast_S_S16x1 (constantI S_ 32 0#32)))
    (addi (broadcastInDim S16x1 ![0] bcast_S16_S16x1_0 (iotaInDim S16 32 0)) (broadcastInDim S16x1 ![] bcast_S_S16x1 (constantI S_ 32 16#32)))
    (broadcastInDim S16x1 ![0] bcast_S16_S16x1_0 (iotaInDim S16 32 0))

/-- A [level, point] array with a trailing unit axis. -/
abbrev addUnit {α : Type} (v : S16x2097152.Idx → α) : S16x2097152x1.Idx → α :=
  broadcastInDim S16x2097152x1 ![0, 1] bcast_S16x2097152_S16x2097152x1_0_1 v

/-- The gather's start indices: the pair (level, row) at every [level, point]. -/
def startV (i : IVec S16x2097152 32) : IVec S16x2097152x2 32 :=
  concatenate S16x2097152x2 2
    [⟨S16x2097152x1, addUnit (broadcastInDim S16x2097152 ![0, 1] bcast_S16x1_S16x2097152_0_1 lvlV)⟩, ⟨S16x2097152x1, addUnit (rowV i)⟩]
    concatenates_S16x2097152x1_S16x2097152x1_S16x2097152x2_d2

/-- The embedding of vertex i: the table's rows at the pairs (level, row). -/
def embV (tab : FVec F S16x524288x4 .f32) (i : IVec S16x2097152 32) : FVec F S16x2097152x4 .f32 :=
  Host.gather gather_S16x524288x4_S16x2097152x2_S16x2097152x4_2_01_n_n_01_2_114 tab (startV i)

/-- A [level, point, 1] array along the four features. -/
abbrev alongF {α : Type} (v : S16x2097152x1.Idx → α) : S16x2097152x4.Idx → α :=
  broadcastInDim S16x2097152x4 ![0, 1, 2] bcast_S16x2097152x1_S16x2097152x4_0_1_2 v

/-- The interpolated embeddings, [level, point, feature]. -/
def mixedV (x : FVec F S2097152 .f32) (tab : FVec F S16x524288x4 .f32) : FVec F S16x2097152x4 .f32 :=
  addf
    (mulf (embV tab (leftV x))
      (alongF (subf (broadcastInDim S16x2097152x1 ![] bcast_S_S16x2097152x1 (constant S_ .f32 0x3F800000#32)) (addUnit (fracV x)))))
    (mulf (embV tab (rightV x)) (alongF (addUnit (fracV x))))

/-- The reference's result: the interpolated embeddings as [point, level · 4 + feature]. -/
def outV (x : FVec F S2097152 .f32) (tab : FVec F S16x524288x4 .f32) : FVec F S2097152x64 .f32 :=
  shapeCast S2097152x64 (transpose S2097152x16x4 [1, 0, 2] (mixedV x tab) transposes_S16x2097152x4_S2097152x16x4_1_0_2)
    shapeCasts_S2097152x16x4_S2097152x64

/-! ## The line, stretch by stretch

The line is eight stretches. Each is read on its own, over ANY contents 'W' before it: what it leaves in the buffers
later stretches read, as a stage of what it found in the buffers it reads, and that it leaves the other buffers read
later as they were. -/

/-- The results of operations read INSIDE a list of operands (a concatenation's), where one rewriting pass does not reach:
    the same result lemmas, one rewrite at a time. -/
local macro "results_inside" : tactic =>
  `(tactic| repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)))

set_option maxRecDepth 8192 in
set_option maxHeartbeats 4000000 in
/-- The constants and the clip: the clipped points, the resolutions, the level numbers; the inputs are not written. -/
theorem upto_clip (W : Valuation τ sig (Elt F)) :
    after (w0_s0 ++ w0_s1) W (Proc.devRef .tc main_v1) = clipV (W (Proc.devRef .tc main_arg0))
    ∧ after (w0_s0 ++ w0_s1) W (Proc.devRef .tc main_c) = resV
    ∧ after (w0_s0 ++ w0_s1) W (Proc.devRef .tc main_v0) = iotaInDim S16 32 0
    ∧ after (w0_s0 ++ w0_s1) W (Proc.devRef .tc main_arg0) = W (Proc.devRef .tc main_arg0)
    ∧ after (w0_s0 ++ w0_s1) W (Proc.devRef .tc main_arg1) = W (Proc.devRef .tc main_arg1) := by
  refine ⟨?_, ?_, ?_, ?_, ?_⟩
  all_goals simp only [w0_s0, w0_s1, List.cons_append, List.nil_append]
  all_goals after_results_simp
  all_goals try rfl

set_option maxRecDepth 8192 in
set_option maxHeartbeats 4000000 in
/-- The vertices: the right vertex, the weight (with its trailing unit axis), the left vertex's mix and the table
    length, from the clipped points, the resolutions and the level numbers. -/
theorem stretch_vertices (W : Valuation τ sig (Elt F)) (x : FVec F S2097152 .f32)
    (hc : W (Proc.devRef .tc main_c) = resV) (hx : W (Proc.devRef .tc main_v1) = clipV x) (hl : W (Proc.devRef .tc main_v0) = iotaInDim S16 32 0) :
    after w0_s2 W (Proc.devRef .tc main_v18) = rightV x
    ∧ after w0_s2 W (Proc.devRef .tc main_v21) = addUnit (fracV x)
    ∧ after w0_s2 W (Proc.devRef .tc main_v28) = mixV (leftV x)
    ∧ after w0_s2 W (Proc.devRef .tc main_c_6) = constantI S_ 32 524288#32
    ∧ after w0_s2 W (Proc.devRef .tc main_v0) = iotaInDim S16 32 0
    ∧ after w0_s2 W (Proc.devRef .tc main_arg0) = W (Proc.devRef .tc main_arg0)
    ∧ after w0_s2 W (Proc.devRef .tc main_arg1) = W (Proc.devRef .tc main_arg1) := by
  refine ⟨?_, ?_, ?_, ?_, ?_, ?_, ?_⟩
  · dsimp only [w0_s2]; after_results_simp; rw [hc, hx]; rfl
  · dsimp only [w0_s2]; after_results_simp; rw [hc, hx]; rfl
  · dsimp only [w0_s2]; after_results_simp; rw [hc, hx, hl]; rfl
  · dsimp only [w0_s2]; after_results_simp; try rfl
  · dsimp only [w0_s2]; after_results_simp; exact hl
  · dsimp only [w0_s2]; after_results_simp
  · dsimp only [w0_s2]; after_results_simp

set_option maxRecDepth 8192 in
set_option maxHeartbeats 4000000 in
/-- The left vertex's hash: jnp's remainder of its mix by the table length; the buffers read later are not written. -/
theorem stretch_rem_left (W : Valuation τ sig (Elt F)) (a : IVec S16x2097152 32) (n : IVec S_ 32)
    (ha : W (Proc.devRef .tc main_v28) = a) (hn : W (Proc.devRef .tc main_c_6) = n) :
    after w0_s3 W (Proc.devRef .tc main_v29) = remV a n
    ∧ after w0_s3 W (Proc.devRef .tc main_v18) = W (Proc.devRef .tc main_v18)
    ∧ after w0_s3 W (Proc.devRef .tc main_v21) = W (Proc.devRef .tc main_v21)
    ∧ after w0_s3 W (Proc.devRef .tc main_v0) = W (Proc.devRef .tc main_v0)
    ∧ after w0_s3 W (Proc.devRef .tc main_arg0) = W (Proc.devRef .tc main_arg0)
    ∧ after w0_s3 W (Proc.devRef .tc main_arg1) = W (Proc.devRef .tc main_arg1) := by
  subst ha hn
  refine ⟨?_, ?_, ?_, ?_, ?_, ?_⟩
  · dsimp only [w0_s3]; after_results_simp; rfl
  · dsimp only [w0_s3]; after_results_simp
  · dsimp only [w0_s3]; after_results_simp
  · dsimp only [w0_s3]; after_results_simp
  · dsimp only [w0_s3]; after_results_simp
  · dsimp only [w0_s3]; after_results_simp

set_option maxRecDepth 8192 in
set_option maxHeartbeats 4000000 in
/-- The right vertex's mix and the table length; the buffers read later are not written. -/
theorem stretch_mix_right (W : Valuation τ sig (Elt F)) (r : IVec S16x2097152 32)
    (hr : W (Proc.devRef .tc main_v18) = r) (hl : W (Proc.devRef .tc main_v0) = iotaInDim S16 32 0) :
    after w0_s4 W (Proc.devRef .tc main_v36) = mixV r
    ∧ after w0_s4 W (Proc.devRef .tc main_c_9) = constantI S_ 32 524288#32
    ∧ after w0_s4 W (Proc.devRef .tc main_v29) = W (Proc.devRef .tc main_v29)
    ∧ after w0_s4 W (Proc.devRef .tc main_v21) = W (Proc.devRef .tc main_v21)
    ∧ after w0_s4 W (Proc.devRef .tc main_v0) = W (Proc.devRef .tc main_v0)
    ∧ after w0_s4 W (Proc.devRef .tc main_arg0) = W (Proc.devRef .tc main_arg0)
    ∧ after w0_s4 W (Proc.devRef .tc main_arg1) = W (Proc.devRef .tc main_arg1) := by
  subst hr
  refine ⟨?_, ?_, ?_, ?_, ?_, ?_, ?_⟩
  · dsimp only [w0_s4]; after_results_simp; rw [hl]; rfl
  · dsimp only [w0_s4]; after_results_simp; try rfl
  · dsimp only [w0_s4]; after_results_simp
  · dsimp only [w0_s4]; after_results_simp
  · dsimp only [w0_s4]; after_results_simp
  · dsimp only [w0_s4]; after_results_simp
  · dsimp only [w0_s4]; after_results_simp

set_option maxRecDepth 8192 in
set_option maxHeartbeats 4000000 in
/-- The right vertex's hash; the buffers read later are not written. -/
theorem stretch_rem_right (W : Valuation τ sig (Elt F)) (a : IVec S16x2097152 32) (n : IVec S_ 32)
    (ha : W (Proc.devRef .tc main_v36) = a) (hn : W (Proc.devRef .tc main_c_9) = n) :
    after w0_s5 W (Proc.devRef .tc main_v37) = remV a n
    ∧ after w0_s5 W (Proc.devRef .tc main_v29) = W (Proc.devRef .tc main_v29)
    ∧ after w0_s5 W (Proc.devRef .tc main_v21) = W (Proc.devRef .tc main_v21)
    ∧ after w0_s5 W (Proc.devRef .tc main_v0) = W (Proc.devRef .tc main_v0)
    ∧ after w0_s5 W (Proc.devRef .tc main_arg0) = W (Proc.devRef .tc main_arg0)
    ∧ after w0_s5 W (Proc.devRef .tc main_arg1) = W (Proc.devRef .tc main_arg1) := by
  subst ha hn
  refine ⟨?_, ?_, ?_, ?_, ?_, ?_⟩
  · dsimp only [w0_s5]; after_results_simp; rfl
  · dsimp only [w0_s5]; after_results_simp
  · dsimp only [w0_s5]; after_results_simp
  · dsimp only [w0_s5]; after_results_simp
  · dsimp only [w0_s5]; after_results_simp
  · dsimp only [w0_s5]; after_results_simp

set_option maxRecDepth 8192 in
set_option maxHeartbeats 4000000 in
/-- The level column, wrapped and not, and the zero array; the buffers read later are not written. -/
theorem stretch_levels (W : Valuation τ sig (Elt F)) (hl : W (Proc.devRef .tc main_v0) = iotaInDim S16 32 0) :
    after w0_s6 W (Proc.devRef .tc main_v38) = broadcastInDim S16x1 ![0] bcast_S16_S16x1_0 (iotaInDim S16 32 0)
    ∧ after w0_s6 W (Proc.devRef .tc main_v43) = lvlV
    ∧ after w0_s6 W (Proc.devRef .tc main_v44) = splatI (constantI S_ 32 0#32)
    ∧ after w0_s6 W (Proc.devRef .tc main_v29) = W (Proc.devRef .tc main_v29)
    ∧ after w0_s6 W (Proc.devRef .tc main_v37) = W (Proc.devRef .tc main_v37)
    ∧ after w0_s6 W (Proc.devRef .tc main_v21) = W (Proc.devRef .tc main_v21)
    ∧ after w0_s6 W (Proc.devRef .tc main_arg0) = W (Proc.devRef .tc main_arg0)
    ∧ after w0_s6 W (Proc.devRef .tc main_arg1) = W (Proc.devRef .tc main_arg1) := by
  refine ⟨?_, ?_, ?_, ?_, ?_, ?_, ?_, ?_⟩
  · dsimp only [w0_s6]; after_results_simp; rw [hl]
  · dsimp only [w0_s6]; after_results_simp; rw [hl]; rfl
  · dsimp only [w0_s6]; after_results_simp; try rfl
  · dsimp only [w0_s6]; after_results_simp
  · dsimp only [w0_s6]; after_results_simp
  · dsimp only [w0_s6]; after_results_simp
  · dsimp only [w0_s6]; after_results_simp
  · dsimp only [w0_s6]; after_results_simp

set_option maxRecDepth 8192 in
set_option maxHeartbeats 4000000 in
/-- The last stretch: the two gathers, the interpolation, the transposition and the flattening, from the level column,
    the two hashes, the weight and the table; the inputs are not written. -/
theorem stretch_result (W : Valuation τ sig (Elt F)) (iL iR : IVec S16x2097152 32) (fr : FVec F S16x2097152 .f32)
    (tab : FVec F S16x524288x4 .f32)
    (h38 : W (Proc.devRef .tc main_v38) = broadcastInDim S16x1 ![0] bcast_S16_S16x1_0 (iotaInDim S16 32 0))
    (h43 : W (Proc.devRef .tc main_v43) = lvlV) (h44 : W (Proc.devRef .tc main_v44) = splatI (constantI S_ 32 0#32))
    (hL : W (Proc.devRef .tc main_v29) = hashV iL) (hR : W (Proc.devRef .tc main_v37) = hashV iR)
    (hf : W (Proc.devRef .tc main_v21) = addUnit fr) (ht : W (Proc.devRef .tc main_arg1) = tab) :
    after w1_s0 W (Proc.devRef .tc main_v77)
        = shapeCast S2097152x64
            (transpose S2097152x16x4 [1, 0, 2]
              (addf
                (mulf (embV tab iL)
                  (alongF (subf (broadcastInDim S16x2097152x1 ![] bcast_S_S16x2097152x1 (constant S_ .f32 0x3F800000#32)) (addUnit fr))))
                (mulf (embV tab iR) (alongF (addUnit fr))))
              transposes_S16x2097152x4_S2097152x16x4_1_0_2)
            shapeCasts_S2097152x16x4_S2097152x64
    ∧ after w1_s0 W (Proc.devRef .tc main_arg0) = W (Proc.devRef .tc main_arg0)
    ∧ after w1_s0 W (Proc.devRef .tc main_arg1) = W (Proc.devRef .tc main_arg1) := by
  subst ht
  refine ⟨?_, ?_, ?_⟩
  · dsimp only [w1_s0]; after_results_simp; results_inside; rw [h38, h43, h44, hL, hR, hf]; rfl
  · dsimp only [w1_s0]; after_results_simp
  · dsimp only [w1_s0]; after_results_simp

/-- The fold over two stretches is the fold over the second of the fold over the first. -/
theorem after_concat (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold of the reference's operations: its result buffer at 'outV' of the argument arrays, which are not written. -/
theorem after_all (V : Valuation τ sig (Elt F)) :
    after ops V (Proc.devRef .tc main_v77) = outV (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  have e : after ops V = after w1_s0 (after w0_s6 (after w0_s5 (after w0_s4 (after w0_s3 (after w0_s2 (after (w0_s0 ++ w0_s1) V)))))) := by
    show after (w0_s0 ++ (w0_s1 ++ (w0_s2 ++ (w0_s3 ++ (w0_s4 ++ (w0_s5 ++ (w0_s6 ++ (w1_s0 ++ [])))))))) V = _
    rw [← List.append_assoc w0_s0 w0_s1, after_concat, after_concat, after_concat, after_concat, after_concat, after_concat,
      List.append_nil]
  rw [e]
  obtain ⟨a1, a2, a3, a4, a5⟩ := upto_clip V
  obtain ⟨b1, b2, b3, b4, b5, b6, b7⟩ := stretch_vertices (after (w0_s0 ++ w0_s1) V) (V (Proc.devRef .tc main_arg0)) a2 a1 a3
  obtain ⟨c1, c2, c3, c4, c5, c6⟩ := stretch_rem_left (after w0_s2 (after (w0_s0 ++ w0_s1) V)) _ _ b3 b4
  obtain ⟨d1, d2, d3, d4, d5, d6, d7⟩ := stretch_mix_right (after w0_s3 (after w0_s2 (after (w0_s0 ++ w0_s1) V))) _
    (c2.trans b1) (c4.trans b5)
  obtain ⟨e1, e2, e3, e4, e5, e6⟩ := stretch_rem_right
    (after w0_s4 (after w0_s3 (after w0_s2 (after (w0_s0 ++ w0_s1) V)))) _ _ d1 d2
  obtain ⟨f1, f2, f3, f4, f5, f6, f7, f8⟩ := stretch_levels
    (after w0_s5 (after w0_s4 (after w0_s3 (after w0_s2 (after (w0_s0 ++ w0_s1) V)))))
    (e4.trans (d5.trans (c4.trans b5)))
  obtain ⟨g1, g2, g3⟩ := stretch_result
    (after w0_s6 (after w0_s5 (after w0_s4 (after w0_s3 (after w0_s2 (after (w0_s0 ++ w0_s1) V))))))
    (leftV (V (Proc.devRef .tc main_arg0))) (rightV (V (Proc.devRef .tc main_arg0))) (fracV (V (Proc.devRef .tc main_arg0))) (V (Proc.devRef .tc main_arg1))
    f1 f2 f3 (f4.trans (e2.trans (d3.trans c1))) (f5.trans e1) (f6.trans (e3.trans (d4.trans (c3.trans b2))))
    (f8.trans (e6.trans (d7.trans (c6.trans (b7.trans a5)))))
  refine ⟨g1, g2.trans (f7.trans (e5.trans (d6.trans (c5.trans (b6.trans a4))))), g3.trans (f8.trans (e6.trans (d7.trans (c6.trans (b7.trans a5)))))⟩

/-- The reference's run, read: its result at 'outV' of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = outV (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v77).trans (after_all (launchContents m c)).1,
      (h c main_arg0).trans (after_all (launchContents m c)).2.1,
      (h c main_arg1).trans (after_all (launchContents m c)).2.2⟩)
    (run_ops m ρ)

end Cert.ReferenceIdeal.Hand

end
-- ==== Proof.RefRead2.lean ====
/-
  THE REFERENCE'S TWO-DIMENSIONAL STAGES READ AT AN INDEX.

  Each whole-array stage of the reference laid out [level, point] — the levels' resolutions, the position of a point along
  a level, its left and right vertices, its interpolation weight, the table row of a vertex, the level's number as a
  wrapped index — is, at level l and point b, the scalar function of the same name applied to the point's coordinate
  x b and the level's resolution word: every operation in a stage is pointwise or a broadcast, and a broadcast read at
  an index is its operand read at the coordinates the broadcast keeps.

  First the broadcasts the stages use, each read at an index built from its coordinates; then the stages.
-/
import proofs.«139522_j19645180412085_1_alg».proof.Proof.RefStages
import proofs.«139522_j19645180412085_1_alg».proof.Proof.Spec
import Idealize.ShloMosaic.Lib.Pipeline.Value
import Idealize.ShloMosaic.Lib.ValueIdx

noncomputable section

namespace Cert.ReferenceIdeal.Hand

open Cert.ReferenceIdeal Cert.ReferenceIdeal.Gen Cert.Spec Idealize.ShloMosaic Idealize.ShloMosaic.ValueIdx

variable {F : FTy → Type} [FloatOps F]

/-! ## The broadcasts, read at an index -/

/-- A rank-0 array broadcast to any shape reads its one element everywhere. -/
theorem bcast0_apply {α : Type} {t : Shape} (h : S_.BroadcastsInDim t (![] : Fin 0 → Fin t.rank)) (v : S_.Idx → α) (j : t.Idx) :
    broadcastInDim t ![] h v j = v ix0 :=
  broadcastInDim_apply _ h v j ix0 (fun a => a.elim0)

/-- A scalar word at every [level, point] is that word. -/
theorem splatI_apply {w : Nat} (v : IVec S_ w) (j : S16x2097152.Idx) : splatI v j = v ix0 := bcast0_apply _ v j

/-- A per-level vector as a [16, 1] column reads, at row l, the vector at l. -/
theorem col_apply {α : Type} (h : S16.BroadcastsInDim S16x1 (![0] : Fin 1 → Fin S16x1.rank)) (v : S16.Idx → α) (l : Fin 16) (z : Fin 1) :
    broadcastInDim S16x1 ![0] h v (ix2 l z) = v (ix1 l) :=
  broadcastInDim_apply _ h v _ (ix1 l) (fun a => match a with | ⟨0, _⟩ => rfl)

/-- A [16, 1] column stretched along the points reads, at [l, b], the column at row l. -/
theorem stretch_apply {α : Type} (h : S16x1.BroadcastsInDim S16x2097152 (![0, 1] : Fin 2 → Fin S16x2097152.rank)) (v : S16x1.Idx → α)
    (l : Fin 16) (b : Fin 2097152) :
    broadcastInDim S16x2097152 ![0, 1] h v (ix2 l b) = v (ix2 l (0 : Fin 1)) :=
  broadcastInDim_apply _ h v _ (ix2 l (0 : Fin 1)) (fun a => match a with | ⟨0, _⟩ => rfl | ⟨1, _⟩ => rfl)

/-- A per-level vector at every [level, point] reads, at [l, b], the vector at l. -/
theorem perLevel_apply {α : Type} (v : S16.Idx → α) (l : Fin 16) (b : Fin 2097152) : perLevel v (ix2 l b) = v (ix1 l) :=
  (stretch_apply _ _ l b).trans (col_apply _ v l 0)

/-- A per-point vector as a [1, 2097152] row, stretched along the levels, reads, at [l, b], the vector at b. -/
theorem perPoint_apply {α : Type} (h₁ : S2097152.BroadcastsInDim S1x2097152 (![1] : Fin 1 → Fin S1x2097152.rank))
    (h₂ : S1x2097152.BroadcastsInDim S16x2097152 (![0, 1] : Fin 2 → Fin S16x2097152.rank)) (v : S2097152.Idx → α)
    (l : Fin 16) (b : Fin 2097152) :
    broadcastInDim S16x2097152 ![0, 1] h₂ (broadcastInDim S1x2097152 ![1] h₁ v) (ix2 l b) = v (ix1 b) :=
  (broadcastInDim_apply _ h₂ _ (ix2 l b) (ix2 (0 : Fin 1) b) (fun a => match a with | ⟨0, _⟩ => rfl | ⟨1, _⟩ => rfl)).trans
    (broadcastInDim_apply _ h₁ v _ (ix1 b) (fun a => match a with | ⟨0, _⟩ => rfl))

/-! ## The stages, read at an index -/

/-- The row-major position of a rank-1 index is its coordinate. -/
theorem rowMajor_ix1 (l : Fin 16) : S16.rowMajor (ix1 l) = l :=
  Fin.ext (Shape.rowMajor_val_one (ix1 l))

/-- The printed table of resolutions is the specification's. -/
theorem lit0_eq : ∀ l : Fin 16, lit0 l = resS l := by decide

/-- The resolution word of level l. -/
theorem resV_apply (l : Fin 16) : resV (ix1 l) = resS l := by
  show lit0 (S16.rowMajor (ix1 l)) = resS l
  rw [rowMajor_ix1, lit0_eq]

/-- res − 1 at level l. -/
theorem resM1V_apply (l : Fin 16) : resM1V (ix1 l) = IntOp.subi (resS l) 1#32 := by
  show IntOp.subi (resV (ix1 l)) (broadcastInDim S16 ![] bcast_S_S16 (constantI S_ 32 1#32) (ix1 l)) = _
  rw [resV_apply, bcast0_apply]
  rfl

/-- clip(x, 0, 1) at point b. -/
theorem clipV_apply (x : FVec F S2097152 .f32) (b : Fin 2097152) : clipV x (ix1 b) = clipS (x (ix1 b)) := by
  show FloatOps.minimumf (broadcastInDim S2097152 ![] bcast_S_S2097152 (id (constant S_ .f32 0x3F800000#32)) (ix1 b))
    (FloatOps.maximumf (broadcastInDim S2097152 ![] bcast_S_S2097152 (id (constant S_ .f32 0x00000000#32)) (ix1 b)) (x (ix1 b))) = _
  rw [bcast0_apply, bcast0_apply]
  rfl

/-- The position of point b along level l. -/
theorem posV_apply (x : FVec F S2097152 .f32) (l : Fin 16) (b : Fin 2097152) : posV x (ix2 l b) = posS (x (ix1 b)) (resS l) := by
  show FloatOps.mulf
    (broadcastInDim S16x2097152 ![0, 1] bcast_S1x2097152_S16x2097152_0_1 (broadcastInDim S1x2097152 ![1] bcast_S2097152_S1x2097152_1 (clipV x)) (ix2 l b))
    (perLevel (sitofp .f32 resM1V) (ix2 l b)) = _
  rw [perPoint_apply, perLevel_apply, clipV_apply]
  show FloatOps.mulf (clipS (x (ix1 b))) (FloatOps.sitofp .f32 (resM1V (ix1 l))) = _
  rw [resM1V_apply]
  rfl

/-- The left vertex of point b at level l. -/
theorem leftV_apply (x : FVec F S2097152 .f32) (l : Fin 16) (b : Fin 2097152) :
    leftV x (ix2 l b) = leftS (posS (x (ix1 b)) (resS l)) := by
  show FloatOps.fptosi 32 (FloatOps.hostUnary .floor (posV x (ix2 l b))) = _
  rw [posV_apply]
  rfl

/-- The right vertex of point b at level l. -/
theorem rightV_apply (x : FVec F S2097152 .f32) (l : Fin 16) (b : Fin 2097152) :
    rightV x (ix2 l b) = rightS (posS (x (ix1 b)) (resS l)) (resS l) := by
  show IntOp.minsi (IntOp.addi (leftV x (ix2 l b)) (splatI (constantI S_ 32 1#32) (ix2 l b))) (perLevel resM1V (ix2 l b)) = _
  rw [leftV_apply, splatI_apply, perLevel_apply, resM1V_apply]
  rfl

/-- The interpolation weight of point b at level l. -/
theorem fracV_apply (x : FVec F S2097152 .f32) (l : Fin 16) (b : Fin 2097152) :
    fracV x (ix2 l b) = fracS (posS (x (ix1 b)) (resS l)) := by
  show FloatOps.subf (posV x (ix2 l b)) (FloatOps.sitofp .f32 (leftV x (ix2 l b))) = _
  rw [leftV_apply, posV_apply]
  rfl

/-- The level's number as a word, at level l. -/
theorem lvlIota_apply (l : Fin 16) : iotaInDim S16 32 0 (ix1 l) = lvlS l := rfl

/-- level · p₂ at [l, b]. -/
theorem lvlMixV_apply (l : Fin 16) (b : Fin 2097152) : lvlMixV (ix2 l b) = IntOp.muli (lvlS l) 19349663#32 := by
  unfold lvlMixV
  rw [stretch_apply]
  show IntOp.muli (broadcastInDim S16x1 ![0] bcast_S16_S16x1_0 (iotaInDim S16 32 0) (ix2 l (0 : Fin 1)))
    (broadcastInDim S16x1 ![] bcast_S_S16x1 (constantI S_ 32 19349663#32) (ix2 l (0 : Fin 1))) = _
  rw [col_apply, bcast0_apply, lvlIota_apply]
  rfl

/-- (i · p₁) xor (level · p₂) at [l, b]. -/
theorem mixV_apply (i : IVec S16x2097152 32) (l : Fin 16) (b : Fin 2097152) :
    mixV i (ix2 l b) = IntOp.xori (IntOp.muli (i (ix2 l b)) 73856093#32) (IntOp.muli (lvlS l) 19349663#32) := by
  show IntOp.xori (IntOp.muli (i (ix2 l b)) (splatI (constantI S_ 32 73856093#32) (ix2 l b))) (lvlMixV (ix2 l b)) = _
  rw [splatI_apply, lvlMixV_apply]
  rfl

/-- The truncated remainder by jnp's divisor, at an index. -/
theorem remRV_apply (a : IVec S16x2097152 32) (n : IVec S_ 32) (j : S16x2097152.Idx) :
    remRV a n j = IntOp.remsi .host (a j) (remDV n ix0) := by
  show IntOp.remsi .host (a j) (splatI (remDV n) j) = _
  rw [splatI_apply]

/-- jnp's remainder at an index: the scalar remainder of the element by the divisor word. -/
theorem remV_apply (a : IVec S16x2097152 32) (n : IVec S_ 32) (j : S16x2097152.Idx) : remV a n j = remS (a j) (n ix0) := by
  show Scalar.select
    (IntOp.andi
      (IntOp.cmpi .ne (IntOp.cmpi .slt (remRV a n j) (splatI (constantI S_ 32 0#32) j))
        (splatI (cmpi .slt (remDV n) (constantI S_ 32 0#32)) j))
      (IntOp.cmpi .ne (remRV a n j) (splatI (constantI S_ 32 0#32) j)))
    (IntOp.addi (remRV a n j) (splatI (remDV n) j)) (remRV a n j) = _
  rw [remRV_apply, splatI_apply, splatI_apply, splatI_apply]
  rfl

/-- The table row of the vertex i [l, b] at level l. -/
theorem rowV_apply (i : IVec S16x2097152 32) (l : Fin 16) (b : Fin 2097152) : rowV i (ix2 l b) = rowS (i (ix2 l b)) (lvlS l) := by
  have hh : hashV i (ix2 l b)
      = remS (IntOp.xori (IntOp.muli (i (ix2 l b)) 73856093#32) (IntOp.muli (lvlS l) 19349663#32)) 524288#32 := by
    show remV (mixV i) (constantI S_ 32 524288#32) (ix2 l b) = _
    rw [remV_apply, mixV_apply]
    rfl
  show Scalar.select (IntOp.cmpi .slt (hashV i (ix2 l b)) (splatI (constantI S_ 32 0#32) (ix2 l b)))
    (IntOp.addi (hashV i (ix2 l b)) (splatI (constantI S_ 32 524288#32) (ix2 l b))) (hashV i (ix2 l b)) = _
  rw [hh, splatI_apply, splatI_apply]
  rfl

/-- The level's number as a wrapped index, at row l of the column. -/
theorem lvlV_apply (l : Fin 16) : lvlV (ix2 l (0 : Fin 1)) = wrapS 16#32 (lvlS l) := by
  show Scalar.select
    (IntOp.cmpi .slt (broadcastInDim S16x1 ![0] bcast_S16_S16x1_0 (iotaInDim S16 32 0) (ix2 l (0 : Fin 1)))
      (broadcastInDim S16x1 ![] bcast_S_S16x1 (constantI S_ 32 0#32) (ix2 l (0 : Fin 1))))
    (IntOp.addi (broadcastInDim S16x1 ![0] bcast_S16_S16x1_0 (iotaInDim S16 32 0) (ix2 l (0 : Fin 1)))
      (broadcastInDim S16x1 ![] bcast_S_S16x1 (constantI S_ 32 16#32) (ix2 l (0 : Fin 1))))
    (broadcastInDim S16x1 ![0] bcast_S16_S16x1_0 (iotaInDim S16 32 0) (ix2 l (0 : Fin 1))) = _
  rw [col_apply, bcast0_apply, bcast0_apply, lvlIota_apply]
  rfl

end Cert.ReferenceIdeal.Hand

end
-- ==== Proof.RefRead3.lean ====
/-
  The reference's three-dimensional stages read at an index: the gather's start indices (a concatenation along a last
  axis of extent 2 of the level column and the row array), the gather itself (the table at the clamped pair), the
  interpolation, and the transposition and flattening that bring entry [level l, point b, feature f] to
  [b, 4 l + f] of the result.
-/
import proofs.«139522_j19645180412085_1_alg».proof.Proof.RefRead2
import proofs.«139522_j19645180412085_1_alg».proof.Proof.LibGatherPair

noncomputable section

namespace Cert.ReferenceIdeal.Hand

open Cert.ReferenceIdeal Cert.ReferenceIdeal.Gen Cert.Spec Idealize.ShloMosaic Idealize.ShloMosaic.ValueIdx

variable {F : FTy → Type} [FloatOps F]

/-- The trailing unit axis reads through. -/
theorem addUnit_apply {α : Type} (v : S16x2097152.Idx → α) (l : Fin 16) (b : Fin 2097152) :
    addUnit v (ix3 l b (0 : Fin 1)) = v (ix2 l b) :=
  broadcastInDim_apply _ _ v (ix3 l b (0 : Fin 1)) (ix2 l b) fun a => by
    match a with
    | ⟨0, _⟩ => rfl
    | ⟨1, _⟩ => rfl

/-- A [level, point, 1] array laid along the features reads, at feature f, its one entry. -/
theorem alongF_apply {α : Type} (v : S16x2097152x1.Idx → α) (l : Fin 16) (b : Fin 2097152) (f : Fin 4) :
    alongF v (ix3 l b f) = v (ix3 l b (0 : Fin 1)) :=
  broadcastInDim_apply _ _ v (ix3 l b f) (ix3 l b (0 : Fin 1)) fun a => by
    match a with
    | ⟨0, _⟩ => rfl
    | ⟨1, _⟩ => rfl
    | ⟨2, _⟩ => rfl

/-- The level column at every point. -/
theorem lvlCol_apply (l : Fin 16) (b : Fin 2097152) :
    broadcastInDim S16x2097152 ![0, 1] bcast_S16x1_S16x2097152_0_1 lvlV (ix2 l b) = wrapS 16#32 (lvlS l) := by
  refine (broadcastInDim_apply _ _ lvlV (ix2 l b) (ix2 l (0 : Fin 1)) fun a => ?_).trans (lvlV_apply l)
  match a with
  | ⟨0, _⟩ => rfl
  | ⟨1, _⟩ => rfl

/-- The start index's first component is the (wrapped) level. -/
theorem startV_apply0 (i : IVec S16x2097152 32) (l : Fin 16) (b : Fin 2097152) :
    startV i (ix3 l b (0 : Fin 2)) = wrapS 16#32 (lvlS l) := by
  unfold startV
  refine (concatenate_pair_apply_left (t := S16x2097152x2) (s₁ := S16x2097152x1) (s₂ := S16x2097152x1) (2 : Fin 3) _ _ concatenates_S16x2097152x1_S16x2097152x1_S16x2097152x2_d2
    (ix3 l b (0 : Fin 2)) rfl (ix3 l b (0 : Fin 1)) fun a => ?_).trans ?_
  · match a with
    | ⟨0, _⟩ => rfl
    | ⟨1, _⟩ => rfl
    | ⟨2, _⟩ => rfl
  · rw [addUnit_apply]
    exact lvlCol_apply l b

/-- The start index's second component is the row. -/
theorem startV_apply1 (i : IVec S16x2097152 32) (l : Fin 16) (b : Fin 2097152) :
    startV i (ix3 l b (1 : Fin 2)) = rowS (i (ix2 l b)) (lvlS l) := by
  unfold startV
  refine (concatenate_pair_apply_right (t := S16x2097152x2) (s₁ := S16x2097152x1) (s₂ := S16x2097152x1) (2 : Fin 3) _ _ concatenates_S16x2097152x1_S16x2097152x1_S16x2097152x2_d2
    (ix3 l b (1 : Fin 2)) rfl rfl (ix3 l b (0 : Fin 1)) (fun a ha => ?_) rfl).trans ?_
  · match a with
    | ⟨0, _⟩ => rfl
    | ⟨1, _⟩ => rfl
    | ⟨2, _⟩ => exact absurd rfl ha
  · rw [addUnit_apply]
    exact rowV_apply i l b

/-- The embedding of vertex i at [l, b, f] is the table's entry for it. -/
theorem embV_apply (tab : FVec F S16x524288x4 .f32) (i : IVec S16x2097152 32) (l : Fin 16) (b : Fin 2097152) (f : Fin 4) :
    embV tab i (ix3 l b f) = cellS tab (i (ix2 l b)) l f := by
  unfold embV cellS
  rw [GatherPair.gather_pair_apply gather_S16x524288x4_S16x2097152x2_S16x2097152x4_2_01_n_n_01_2_114 rfl rfl rfl rfl rfl rfl
    (by decide) (by decide) tab (startV i) l b f]
  simp only [startV_apply0, startV_apply1]

/-- The interpolated embedding at [l, b, f]. -/
theorem mixedV_apply (x : FVec F S2097152 .f32) (tab : FVec F S16x524288x4 .f32) (l : Fin 16) (b : Fin 2097152) (f : Fin 4) :
    mixedV x tab (ix3 l b f)
      = FloatOps.addf
          (FloatOps.mulf (cellS tab (leftS (posS (x (ix1 b)) (resS l))) l f)
            (FloatOps.subf (FloatOps.ofBits .f32 0x3F800000#32) (fracS (posS (x (ix1 b)) (resS l)))))
          (FloatOps.mulf (cellS tab (rightS (posS (x (ix1 b)) (resS l)) (resS l)) l f) (fracS (posS (x (ix1 b)) (resS l)))) := by
  show FloatOps.addf
      (FloatOps.mulf (embV tab (leftV x) (ix3 l b f))
        (alongF (subf (broadcastInDim S16x2097152x1 ![] bcast_S_S16x2097152x1 (constant S_ .f32 0x3F800000#32)) (addUnit (fracV x))) (ix3 l b f)))
      (FloatOps.mulf (embV tab (rightV x) (ix3 l b f)) (alongF (addUnit (fracV x)) (ix3 l b f))) = _
  rw [embV_apply, embV_apply, alongF_apply, alongF_apply, leftV_apply, rightV_apply]
  show FloatOps.addf
      (FloatOps.mulf _ (FloatOps.subf (FloatOps.ofBits .f32 0x3F800000#32) (addUnit (fracV x) (ix3 l b (0 : Fin 1)))))
      (FloatOps.mulf _ (addUnit (fracV x) (ix3 l b (0 : Fin 1)))) = _
  rw [addUnit_apply, fracV_apply]

/-- The reference's result at [b, 4 l + f]. -/
theorem outV_apply (x : FVec F S2097152 .f32) (tab : FVec F S16x524288x4 .f32) (b : Fin 2097152) (l : Fin 16) (f : Fin 4) :
    outV x tab (ix2 b (⟨4 * l.val + f.val, by omega⟩ : Fin 64))
      = FloatOps.addf
          (FloatOps.mulf (cellS tab (leftS (posS (x (ix1 b)) (resS l))) l f)
            (FloatOps.subf (FloatOps.ofBits .f32 0x3F800000#32) (fracS (posS (x (ix1 b)) (resS l)))))
          (FloatOps.mulf (cellS tab (rightS (posS (x (ix1 b)) (resS l)) (resS l)) l f) (fracS (posS (x (ix1 b)) (resS l)))) := by
  unfold outV
  refine (shapeCast_apply _ _ (ix2 b (⟨4 * l.val + f.val, by omega⟩ : Fin 64)) (ix3 b l f) ?_).trans ?_
  · rw [Shape.rowMajor_val_three, Shape.rowMajor_val_two]
    show (b.val * 16 + l.val) * 4 + f.val = b.val * 64 + (4 * l.val + f.val)
    omega
  refine (transpose_apply _ _ _ (ix3 b l f) (ix3 l b f) fun a => ?_).trans (mixedV_apply x tab l b f)
  match a with
  | ⟨0, _⟩ => rfl
  | ⟨1, _⟩ => rfl
  | ⟨2, _⟩ => rfl

end Cert.ReferenceIdeal.Hand

end
-- ==== Proof.Finite.lean ====
import proofs.«139522_j19645180412085_1_alg».proof.Pre_finite_inputs
import proofs.«139522_j19645180412085_1_alg».proof.Proof.Gen.Pre_finite_inputs
import Idealize.ShloMosaic.PureOps.Ideal
import Idealize.ShloMosaic.Lib.ReduceAll
import Idealize.ShloMosaic.Lib.ValueIdx

/-!
# The precondition, read back

The precondition computes, for each of the two inputs, the conjunction over all entries of
`|v| < +∞`, and conjoins the two results. At the ideal instance a float is an extended real, the
pattern `0x7F800000` is `⊤`, and `|v| = max v (-v)`; so `|v| < ⊤` excludes `v = ⊤` (where `|v| = ⊤`)
and `v = ⊥` (where `-v = ⊤`), and what is left of an extended real is a real number.
-/

noncomputable section

namespace Cert.Finite

open Idealize.ShloMosaic Cert.Pre_finite_inputs Cert.Pre_finite_inputs.Gen

/-- The scalar shape has one index. -/
instance : Subsingleton S_.Idx := ⟨fun a b => funext fun d => d.elim0⟩

/-- The f32 pattern `0x7F800000` (exponent all ones, fraction zero, sign clear) is `+∞`. -/
theorem ofBits_inf : Ideal.ofBits .f32 0x7F800000#32 = (⊤ : EReal) := by
  simp [Ideal.ofBits, Ideal.ieee]

/-- An extended real whose absolute value `max v (-v)` compares below `⊤` is a real number:
    at `⊤` the maximum is `⊤`, at `⊥` the negation is `⊤`, and `⊤ < ⊤` is false. -/
theorem real_of_abs_lt_top (v : EReal) (h : Ideal.cmp .olt (max v (-v)) ⊤ = 1#1) :
    ∃ r : ℝ, v = ((r : ℝ) : EReal) := by
  induction v using EReal.rec with
  | bot => simp [Ideal.cmp] at h
  | coe r => exact ⟨r, rfl⟩
  | top => simp [Ideal.cmp] at h

/-- The element-wise test of the precondition, at one entry: `cmpf olt (absf v) (+∞) = 1` makes `v` real. -/
theorem real_of_entry (v : Ideal .f32)
    (h : FloatOps.cmpf (F := Ideal) .olt (FloatOps.hostAbsf v) (FloatOps.ofBits .f32 0x7F800000#32) = 1#1) :
    ∃ r : ℝ, v = ((r : ℝ) : EReal) := by
  apply real_of_abs_lt_top
  rw [← ofBits_inf]
  exact h

/-- The precondition holds (its one result word is 1) only if every entry of both inputs is a real number. -/
theorem real_of_pre [Cert.Pre_finite_inputs.Facts] (x : FVec Ideal S2097152 .f32) (tab : FVec Ideal S16x524288x4 .f32)
    (h : Cert.Pre_finite_inputs.fn (F := Ideal) x tab = fun _ => 1#1) :
    (∀ i, ∃ r : ℝ, x i = ((r : ℝ) : EReal)) ∧ (∀ i, ∃ r : ℝ, tab i = ((r : ℝ) : EReal)) := by
  have h0 := congrFun h ValueIdx.ix0
  dsimp only [fn] at h0
  obtain ⟨h1, h2⟩ := IntOp.andi_eq_one.1 h0
  refine ⟨fun i => ?_, fun i => ?_⟩
  · exact real_of_entry (x i) (Host.reduce_andi_all _ _ _ _ _ h1 i)
  · exact real_of_entry (tab i) (Host.reduce_andi_all _ _ _ _ _ h2 i)

end Cert.Finite

end
-- ==== Proof.Bridge.lean ====
/-
  The two results are one function. The kernel's output array is e₀ + w · (e₁ − e₀) of its three window arrays, index by
  index; at [point b, 4 l + f] these are the table's entries for the left and right vertices of point b at level l and
  the weight; the reference's result there is e₀ · (1 − w) + e₁ · w of the same three numbers. Under the precondition the
  point and the table's entries are real, hence so are the position, the weight and the entries, and on real numbers
  the two spellings of the interpolation agree.
-/
import proofs.«139522_j19645180412085_1_alg».proof.Proof.KerArray
import proofs.«139522_j19645180412085_1_alg».proof.Proof.KerRead3
import proofs.«139522_j19645180412085_1_alg».proof.Proof.RefRead3
import proofs.«139522_j19645180412085_1_alg».proof.Proof.Finite
import proofs.«139522_j19645180412085_1_alg».proof.Proof.Spec

noncomputable section

namespace Cert.Bridge

open Idealize.ShloMosaic Idealize.ShloMosaic.ValueIdx Cert.Spec

/-- A column of the result is a (level, feature) pair: q = 4 l + f. -/
theorem split_col (q : Fin 64) : ∃ (l : Fin 16) (f : Fin 4), q = (⟨4 * l.val + f.val, by omega⟩ : Fin 64) :=
  ⟨⟨q.val / 4, by omega⟩, ⟨q.val % 4, by omega⟩, Fin.ext (by show q.val = 4 * (q.val / 4) + q.val % 4; omega)⟩

/-- The kernel's interpolation of its three window arrays is the reference's result, for inputs the precondition admits. -/
theorem lerp_eq_out [Cert.Pre_finite_inputs.Facts]
    (x : FVec Ideal Cert.KernelIdeal.S2097152 .f32) (tab : FVec Ideal Cert.KernelIdeal.S16x524288x4 .f32)
    (hpre : Cert.Pre_finite_inputs.fn (F := Ideal) x tab = fun _ => 1#1) :
    Cert.KernelIdeal.Arr.lerp (Cert.KernelIdeal.Stages.e0V x tab) (Cert.KernelIdeal.Stages.e1V x tab) (Cert.KernelIdeal.Stages.wV x)
      = Cert.ReferenceIdeal.Hand.outV x tab := by
  obtain ⟨hx, htab⟩ := Cert.Finite.real_of_pre x tab hpre
  funext j
  obtain ⟨b, q, rfl⟩ : ∃ (b : Fin 2097152) (q : Fin 64), j = ix2 b q := ⟨j 0, j 1, eq_ix2 j⟩
  obtain ⟨l, f, rfl⟩ := split_col q
  show FloatOps.addf (Cert.KernelIdeal.Stages.e0V x tab (ix2 b ⟨4 * l.val + f.val, _⟩))
      (FloatOps.mulf (Cert.KernelIdeal.Stages.wV x (ix2 b ⟨4 * l.val + f.val, _⟩))
        (FloatOps.subf (Cert.KernelIdeal.Stages.e1V x tab (ix2 b ⟨4 * l.val + f.val, _⟩))
          (Cert.KernelIdeal.Stages.e0V x tab (ix2 b ⟨4 * l.val + f.val, _⟩)))) = _
  rw [Cert.KernelIdeal.Stages.e0V_apply, Cert.KernelIdeal.Stages.e1V_apply, Cert.KernelIdeal.Stages.wV_apply,
    Cert.ReferenceIdeal.Hand.outV_apply]
  obtain ⟨r, hr⟩ := hx (ix1 b)
  rw [hr]
  exact cell_lerp r tab htab l f

end Cert.Bridge

end
-- ==== Proof.lean ====
/-
  The certificate of a multiresolution hash-grid lookup with linear interpolation.

  Both programs compute, for a point x and each of sixteen levels, the position of clip(x, 0, 1) along the level, its two
  neighbouring vertices, their hashed rows in the level's table and the interpolation weight w, by the same host
  operations laid out [point, level] in the kernel's program and [level, point] in the reference; the kernel's
  pallas_call then forms e₀ + w · (e₁ − e₀) block by block, the reference e₀ · (1 − w) + e₁ · w, transposed and flattened to
  the same [point, 4 · level + feature] layout. The frames of the two kernel programs are the generated ones; the
  reference is a straight line of host operations (Proof/RefRun.lean); nothing was rewritten by the idealization, so
  'preserves' is trivial; the algebraic claim is Proof/Bridge.lean's equation, which needs the inputs finite.
-/
import proofs.«139522_j19645180412085_1_alg».proof.Defs
import proofs.«139522_j19645180412085_1_alg».proof.Proof.Gen.Kernel
import proofs.«139522_j19645180412085_1_alg».proof.Proof.Gen.Kernel.Skeleton
import proofs.«139522_j19645180412085_1_alg».proof.Proof.Gen.Kernel.Launch
import proofs.«139522_j19645180412085_1_alg».proof.Proof.Gen.Kernel.Points
import proofs.«139522_j19645180412085_1_alg».proof.Proof.Gen.Kernel.Frame
import proofs.«139522_j19645180412085_1_alg».proof.Proof.Gen.KernelIdeal
import proofs.«139522_j19645180412085_1_alg».proof.Proof.Gen.KernelIdeal.Skeleton
import proofs.«139522_j19645180412085_1_alg».proof.Proof.Gen.KernelIdeal.Launch
import proofs.«139522_j19645180412085_1_alg».proof.Proof.Gen.KernelIdeal.Points
import proofs.«139522_j19645180412085_1_alg».proof.Proof.Gen.KernelIdeal.Frame
import proofs.«139522_j19645180412085_1_alg».proof.Proof.Gen.KernelIdeal.Value
import proofs.«139522_j19645180412085_1_alg».proof.Proof.Gen.ReferenceIdeal
import proofs.«139522_j19645180412085_1_alg».proof.Proof.Gen.Pre_finite_inputs
import proofs.«139522_j19645180412085_1_alg».proof.Proof.Bridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- Both idealized programs run, the kernel's to the interpolation of its three window arrays (the host stages of the
    arguments), the reference's to its composed stages of arguments that agree; the two are one function. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.Arr.lerp (Cert.KernelIdeal.Gen.V m c Cert.KernelIdeal.main_v70)
    (Cert.KernelIdeal.Gen.V m c Cert.KernelIdeal.main_v71) (Cert.KernelIdeal.Gen.V m c Cert.KernelIdeal.main_v72),
    Cert.KernelIdeal.Arr.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  show _ = Cert.KernelIdeal.Arr.lerp (Cert.KernelIdeal.Gen.V m c Cert.KernelIdeal.main_v70)
    (Cert.KernelIdeal.Gen.V m c Cert.KernelIdeal.main_v71) (Cert.KernelIdeal.Gen.V m c Cert.KernelIdeal.main_v72)
  rw [Cert.KernelIdeal.Stages.V_v70, Cert.KernelIdeal.Stages.V_v71, Cert.KernelIdeal.Stages.V_v72]
  exact (Cert.Bridge.lerp_eq_out _ _ (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
